-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x2048 : Shape := ⟨3, ![64, 256, 2048]⟩
abbrev S32x256x1 : Shape := ⟨3, ![32, 256, 1]⟩
abbrev S32 : Shape := ⟨1, ![32]⟩
abbrev S256x32x1 : Shape := ⟨3, ![256, 32, 1]⟩
abbrev S256 : Shape := ⟨1, ![256]⟩
abbrev S_ : Shape := ⟨0, ![]⟩

class Facts : Prop where
  bcast_S_S64x256x2048 : S_.BroadcastsInDim S64x256x2048 (![] : Fin 0 → Fin S64x256x2048.rank)
  reducesTo_S64x256x2048_S_d0_1_2 : S64x256x2048.ReducesTo [0, 1, 2] S_
  h_S_ : 0 < S_.numel
  bcast_S_S32x256x1 : S_.BroadcastsInDim S32x256x1 (![] : Fin 0 → Fin S32x256x1.rank)
  reducesTo_S32x256x1_S_d0_1_2 : S32x256x1.ReducesTo [0, 1, 2] S_
  bcast_S_S32 : S_.BroadcastsInDim S32 (![] : Fin 0 → Fin S32.rank)
  reducesTo_S32_S_d0 : S32.ReducesTo [0] S_
  bcast_S_S256x32x1 : S_.BroadcastsInDim S256x32x1 (![] : Fin 0 → Fin S256x32x1.rank)
  reducesTo_S256x32x1_S_d0_1_2 : S256x32x1.ReducesTo [0, 1, 2] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x32x1 1) : IVec S_ 1 :=
  let main_c_5 : IVec S_ 1 := constantI S_ 1 1#1
  let main_v17 : IVec S_ 1 := (fun x v => Host.reduce IntOp.andi x v reducesTo_S256x32x1_S_d0_1_2 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S64x256x2048 .f32) (main_arg1 : FVec F S32x256x1 .f32) (main_arg2 : FVec F S32 .f32) (main_arg3 : FVec F S256x32x1 .f32) (main_arg4 : FVec F S256 .f32) : IVec S_ 1 :=
  let main_v0 : FVec F S64x256x2048 .f32 := Host.absf main_arg0
  let main_cst : FVec F S_ .f32 := constant S_ .f32 0x7F800000#32
  let main_v1 : FVec F S64x256x2048 .f32 := broadcastInDim S64x256x2048 ![] bcast_S_S64x256x2048 main_cst
  let main_v2 : IVec S64x256x2048 1 := cmpf .olt main_v0 main_v1
  let main_c : IVec S_ 1 := constantI S_ 1 1#1
  let main_v3 : IVec S_ 1 := (fun x v => Host.reduce IntOp.andi x v reducesTo_S64x256x2048_S_d0_1_2 h_S_) main_v2 main_c
  let main_v4 : FVec F S32x256x1 .f32 := Host.absf main_arg1
  let main_cst_0 : FVec F S_ .f32 := constant S_ .f32 0x7F800000#32
  let main_v5 : FVec F S32x256x1 .f32 := broadcastInDim S32x256x1 ![] bcast_S_S32x256x1 main_cst_0
  let main_v6 : IVec S32x256x1 1 := cmpf .olt main_v4 main_v5
  let main_c_1 : IVec S_ 1 := constantI S_ 1 1#1
  let main_v7 : IVec S_ 1 := (fun x v => Host.reduce IntOp.andi x v reducesTo_S32x256x1_S_d0_1_2 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S256x32x1 .f32 := Host.absf main_arg3
  let main_cst_4 : FVec F S_ .f32 := constant S_ .f32 0x7F800000#32
  let main_v15 : FVec F S256x32x1 .f32 := broadcastInDim S256x32x1 ![] bcast_S_S256x32x1 main_cst_4
  let main_v16 : IVec S256x32x1 1 := cmpf .olt main_v14 main_v15
  fn_part1 (F := F) main_arg4 main_v13 main_v16
-- ==== Kernel.lean ====
abbrev S64x256x2048 : Shape := ⟨3, ![64, 256, 2048]⟩
abbrev S32x256x1 : Shape := ⟨3, ![32, 256, 1]⟩
abbrev S32 : Shape := ⟨1, ![32]⟩
abbrev S256x32x1 : Shape := ⟨3, ![256, 32, 1]⟩
abbrev S256 : Shape := ⟨1, ![256]⟩
abbrev S32x256 : Shape := ⟨2, ![32, 256]⟩
abbrev S256x32 : Shape := ⟨2, ![256, 32]⟩
abbrev S_ : Shape := ⟨0, ![]⟩
abbrev S1x256 : Shape := ⟨2, ![1, 256]⟩
abbrev S1 : Shape := ⟨1, ![1]⟩
abbrev S2 : Shape := ⟨1, ![2]⟩
abbrev S6x256 : Shape := ⟨2, ![6, 256]⟩
abbrev S72x256 : Shape := ⟨2, ![72, 256]⟩
abbrev S4x256x2048 : Shape := ⟨3, ![4, 256, 2048]⟩
abbrev S4x256 : Shape := ⟨2, ![4, 256]⟩
abbrev S1x32 : Shape := ⟨2, ![1, 32]⟩
abbrev S4x32 : Shape := ⟨2, ![4, 32]⟩
abbrev S4x256x1 : Shape := ⟨3, ![4, 256, 1]⟩

abbrev nBuf : Space → Nat
  | .hbm => 21
  | .vmem => 5
  | .smem => 0
  | _ => 0

abbrev bufTy : (tb : Table) → Fin (tcTables nBuf tb) → BufTy
  | .hbm, ⟨0, _⟩ => ⟨S64x256x2048, .f32⟩
  | .hbm, ⟨1, _⟩ => ⟨S32x256x1, .f32⟩
  | .hbm, ⟨2, _⟩ => ⟨S32, .f32⟩
  | .hbm, ⟨3, _⟩ => ⟨S256x32x1, .f32⟩
  | .hbm, ⟨4, _⟩ => ⟨S256, .f32⟩
  | .hbm, ⟨5, _⟩ => ⟨S32x256, .f32⟩
  | .hbm, ⟨6, _⟩ => ⟨S256x32, .f32⟩
  | .hbm, ⟨7, _⟩ => ⟨S32x256, .f32⟩
  | .hbm, ⟨8, _⟩ => ⟨S_, .f32⟩
  | .hbm, ⟨9, _⟩ => ⟨S1x256, .f32⟩
  | .hbm, ⟨10, _⟩ => ⟨S_, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S2, .i32⟩
  | .hbm, ⟨15, _⟩ => ⟨S1x256, .f32⟩
  | .hbm, ⟨16, _⟩ => ⟨S1x256, .f32⟩
  | .hbm, ⟨17, _⟩ => ⟨S_, .f32⟩
  | .hbm, ⟨18, _⟩ => ⟨S6x256, .f32⟩
  | .hbm, ⟨19, _⟩ => ⟨S72x256, .f32⟩
  | .hbm, ⟨20, _⟩ => ⟨S64x256x2048, .f32⟩
  | .local _ .vmem, ⟨0, _⟩ => ⟨S4x256x2048, .f32⟩
  | .local _ .vmem, ⟨1, _⟩ => ⟨S4x256x2048, .f32⟩
  | .local _ .vmem, ⟨2, _⟩ => ⟨S72x256, .f32⟩
  | .local _ .vmem, ⟨3, _⟩ => ⟨S4x256x2048, .f32⟩
  | .local _ .vmem, ⟨4, _⟩ => ⟨S4x256x2048, .f32⟩
  | _, _ => ⟨S64x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S72x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x256x1_S32x256 : S32x256x1.ShapeCasts S32x256
  shapeCasts_S256x32x1_S256x32 : S256x32x1.ShapeCasts S256x32
  transposes_S256x32_S32x256_1_0 : S256x32.Transposes [1, 0] S32x256
  bcast_S_S1x256 : S_.BroadcastsInDim S1x256 (![] : Fin 0 → Fin S1x256.rank)
  bcast_S_S1 : S_.BroadcastsInDim S1 (![] : Fin 0 → Fin S1.rank)
  concatenates_S1_S1_S2_d0 : Shape.Concatenates [S1, S1] S2 0
  shapeCasts_S256_S1x256 : S256.ShapeCasts S1x256
  bcast_S_S6x256 : S_.BroadcastsInDim S6x256 (![] : Fin 0 → Fin S6x256.rank)
  concatenates_S32x256_S32x256_S1x256_S1x256_S6x256_S72x256_d0 : Shape.Concatenates [S32x256, S32x256, S1x256, S1x256, S6x256] S72x256 0
  inb_S4x256x2048_S4x256x2048_0_0_0 : ∀ a, (![0, 0, 0] : Fin 3 → Nat) a + S4x256x2048.size a ≤ S4x256x2048.size a
  h_S4x256x2048 : 0 < S4x256x2048.numel
  reduces_S4x256x2048_S4x256 : S4x256x2048.Reduces [2] S4x256
  inb_S72x256_S32x256_0_0 : ∀ a, (![0, 0] : Fin 2 → Nat) a + S32x256.size a ≤ S72x256.size a
  h_S32x256 : 0 < S32x256.numel
  shapeCasts_S32x256_S32x256 : S32x256.ShapeCasts S32x256
  inb_S72x256_S32x256_32_0 : ∀ a, (![32, 0] : Fin 2 → Nat) a + S32x256.size a ≤ S72x256.size a
  inb_S72x256_S1x32_64_0 : ∀ a, (![64, 0] : Fin 2 → Nat) a + S1x32.size a ≤ S72x256.size a
  h_S1x32 : 0 < S1x32.numel
  shapeCasts_S1x32_S1x32 : S1x32.ShapeCasts S1x32
  inb_S72x256_S1x256_65_0 : ∀ a, (![65, 0] : Fin 2 → Nat) a + S1x256.size a ≤ S72x256.size a
  h_S1x256 : 0 < S1x256.numel
  shapeCasts_S1x256_S1x256 : S1x256.ShapeCasts S1x256
  broadcasts_S1x32_S4x32 : S1x32.Broadcasts S4x32
  broadcasts_S1x256_S4x256 : S1x256.Broadcasts S4x256
  shapeCasts_S4x256_S4x256x1 : S4x256.ShapeCasts S4x256x1
  broadcasts_S4x256x1_S4x256x2048 : S4x256x1.Broadcasts S4x256x2048
  scatter_S1x256_S2_S32_0_0_01_0_wf : ScatterDims.WF S1x256 S2 S32 [0] [0] [0, 1] 0
  dot_S4x256_S32x256_S4x32_1_1_0_0_n_n_wf : DotDims.WF S4x256 S32x256 S4x32 [1] [1] [0] [0] [] []
  dot_S4x32_S32x256_S4x256_1_0_0_1_n_n_wf : DotDims.WF S4x32 S32x256 S4x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x2048.size a ≤ S64x256x2048.size a
  hwx0_0 : ∀ i : grid0.Coords, EltTy.bits .f32 = 32 ∨ (Rect.block (s := S64x256x2048) S4x256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S72x256.size a ≤ S72x256.size a
  hwx0_1 : ∀ i : grid0.Coords, EltTy.bits .f32 = 32 ∨ (Rect.block (s := S72x256) S72x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x256x2048.size a ≤ S64x256x2048.size a
  hwx0_2 : ∀ i : grid0.Coords, EltTy.bits .f32 = 32 ∨ (Rect.block (s := S64x256x2048) S4x256x2048.size (cc0_transform_2 i) (hinb0_2 i)).WholeWords (EltTy.packing .f32)

variable [Facts₀]

def scatter_S1x256_S2_S32_0_0_01_0 : ScatterDims S1x256 S2 S32 where
  updateWindowDims := [0]
  insertedWindowDims := [0]
  scatterDimsToOperandDims := [0, 1]
  indexVectorDim := 0
  wf := scatter_S1x256_S2_S32_0_0_01_0_wf
def dot_S4x256_S32x256_S4x32_1_1_0_0_n_n : DotDims S4x256 S32x256 S4x32 where
  lhsContracting := [1]
  rhsContracting := [1]
  lhsNonContracting := [0]
  rhsNonContracting := [0]
  lhsBatch := []
  rhsBatch := []
  wf := dot_S4x256_S32x256_S4x32_1_1_0_0_n_n_wf
def dot_S4x32_S32x256_S4x256_1_0_0_1_n_n : DotDims S4x32 S32x256 S4x256 where
  lhsContracting := [1]
  rhsContracting := [0]
  lhsNonContracting := [0]
  rhsNonContracting := [1]
  lhsBatch := []
  rhsBatch := []
  wf := dot_S4x32_S32x256_S4x256_1_0_0_1_n_n_wf

abbrev win0_0 : Pipeline.Window sig grid0 :=
  Pipeline.Window.ofSpec (Memref.whole main_arg0) S4x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S72x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S4x256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x256x2048 : Shape := ⟨3, ![64, 256, 2048]⟩
abbrev S32x256x1 : Shape := ⟨3, ![32, 256, 1]⟩
abbrev S32 : Shape := ⟨1, ![32]⟩
abbrev S256x32x1 : Shape := ⟨3, ![256, 32, 1]⟩
abbrev S256 : Shape := ⟨1, ![256]⟩
abbrev S32x256 : Shape := ⟨2, ![32, 256]⟩
abbrev S256x32 : Shape := ⟨2, ![256, 32]⟩
abbrev S32x1 : Shape := ⟨2, ![32, 1]⟩
abbrev S256x1 : Shape := ⟨2, ![256, 1]⟩
abbrev S1x256x2048 : Shape := ⟨3, ![1, 256, 2048]⟩
abbrev S256x2048 : Shape := ⟨2, ![256, 2048]⟩

abbrev nBuf : Space → Nat
  | .hbm => 10
  | .vmem => 8
  | .smem => 0
  | _ => 0

abbrev bufTy : (tb : Table) → Fin (tcTables nBuf tb) → BufTy
  | .hbm, ⟨0, _⟩ => ⟨S64x256x2048, .f32⟩
  | .hbm, ⟨1, _⟩ => ⟨S32x256x1, .f32⟩
  | .hbm, ⟨2, _⟩ => ⟨S32, .f32⟩
  | .hbm, ⟨3, _⟩ => ⟨S256x32x1, .f32⟩
  | .hbm, ⟨4, _⟩ => ⟨S256, .f32⟩
  | .hbm, ⟨5, _⟩ => ⟨S32x256, .f32⟩
  | .hbm, ⟨6, _⟩ => ⟨S256x32, .f32⟩
  | .hbm, ⟨7, _⟩ => ⟨S32x1, .f32⟩
  | .hbm, ⟨8, _⟩ => ⟨S256x1, .f32⟩
  | .hbm, ⟨9, _⟩ => ⟨S64x256x2048, .f32⟩
  | .local _ .vmem, ⟨0, _⟩ => ⟨S1x256x2048, .f32⟩
  | .local _ .vmem, ⟨1, _⟩ => ⟨S1x256x2048, .f32⟩
  | .local _ .vmem, ⟨2, _⟩ => ⟨S32x256, .f32⟩
  | .local _ .vmem, ⟨3, _⟩ => ⟨S32x1, .f32⟩
  | .local _ .vmem, ⟨4, _⟩ => ⟨S256x32, .f32⟩
  | .local _ .vmem, ⟨5, _⟩ => ⟨S256x1, .f32⟩
  | .local _ .vmem, ⟨6, _⟩ => ⟨S1x256x2048, .f32⟩
  | .local _ .vmem, ⟨7, _⟩ => ⟨S1x256x2048, .f32⟩
  | _, _ => ⟨S64x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x256x1_S32x256 : S32x256x1.ShapeCasts S32x256
  shapeCasts_S256x32x1_S256x32 : S256x32x1.ShapeCasts S256x32
  shapeCasts_S32_S32x1 : S32.ShapeCasts S32x1
  shapeCasts_S256_S256x1 : S256.ShapeCasts S256x1
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  reduces_S256x2048_S256 : S256x2048.Reduces [1] S256
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x2048 : S256x1.Broadcasts S256x2048
  shapeCasts_S256x2048_S1x256x2048 : S256x2048.ShapeCasts S1x256x2048
  dot_S32x256_S256x1_S32x1_1_0_0_1_n_n_wf : DotDims.WF S32x256 S256x1 S32x1 [1] [0] [0] [1] [] []
  dot_S256x32_S32x1_S256x1_1_0_0_1_n_n_wf : DotDims.WF S256x32 S32x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S64x256x2048.size a
  hwx0_0 : ∀ i : grid0.Coords, EltTy.bits .f32 = 32 ∨ (Rect.block (s := S64x256x2048) S1x256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S32x256.size a
  hwx0_1 : ∀ i : grid0.Coords, EltTy.bits .f32 = 32 ∨ (Rect.block (s := S32x256) S32x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x32.size a ≤ S256x32.size a
  hwx0_3 : ∀ i : grid0.Coords, EltTy.bits .f32 = 32 ∨ (Rect.block (s := S256x32) S256x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x2048.size a ≤ S64x256x2048.size a
  hwx0_5 : ∀ i : grid0.Coords, EltTy.bits .f32 = 32 ∨ (Rect.block (s := S64x256x2048) S1x256x2048.size (cc0_transform_5 i) (hinb0_5 i)).WholeWords (EltTy.packing .f32)

variable [Facts₀]

def dot_S32x256_S256x1_S32x1_1_0_0_1_n_n : DotDims S32x256 S256x1 S32x1 where
  lhsContracting := [1]
  rhsContracting := [0]
  lhsNonContracting := [0]
  rhsNonContracting := [1]
  lhsBatch := []
  rhsBatch := []
  wf := dot_S32x256_S256x1_S32x1_1_0_0_1_n_n_wf
def dot_S256x32_S32x1_S256x1_1_0_0_1_n_n : DotDims S256x32 S32x1 S256x1 where
  lhsContracting := [1]
  rhsContracting := [0]
  lhsNonContracting := [0]
  rhsNonContracting := [1]
  lhsBatch := []
  rhsBatch := []
  wf := dot_S256x32_S32x1_S256x1_1_0_0_1_n_n_wf

abbrev win0_0 : Pipeline.Window sig grid0 :=
  Pipeline.Window.ofSpec (Memref.whole main_arg0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.KEntry.lean ====
/-
  The squeeze-and-excitation kernel's program up to its one region.

  @main is fifteen host operations and then the region. The host operations only lay the four parameter arrays out
  as one `[72, 256]` array: the squeeze weights as rows 0–31, the transposed excite weights as rows 32–63, the squeeze
  bias scattered into the first 32 columns of a zero row 64, the excite bias as row 65, six zero rows. None of them
  writes an argument array, so the region finds every argument as launched; `V` is what each buffer holds when the
  region is entered, and a window's block at a grid point is read off `V`.
-/
import proofs.«112386_g2000605190125749_pallasbulk_600_4_alg».proof.Proof.Gen.KernelIdeal.Launch
import proofs.«112386_g2000605190125749_pallasbulk_600_4_alg».proof.Proof.Gen.KernelIdeal.Skeleton
import proofs.«112386_g2000605190125749_pallasbulk_600_4_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main up to the region -/

/-- Core `c`'s buffers when the region is entered: after the fifteen host operations. -/
abbrev V (c : Dev nD) (b : Ref sig .tc) : Buf (Elt F) ((c : Thread nD τ).loc b) :=
  StableHlo.after Gen.hostOps0 (fun b => m (c, b)) b

/-- No host operation allocates a buffer. -/
theorem hostOps0_fresh : (Gen.hostOps0 : List (HloOp τ sig (Elt F))).Forall fun op => op.fresh = ∅ := by
  simp only [List.Forall]; repeat' constructor

/-- @main is the host operations and then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main Gen.hostOps0 Gen.hostOps0_sub hostOps0_fresh Gen.main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [Gen.hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [Gen.hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [Gen.hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [Gen.hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [Gen.hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

end Cert.KernelIdeal.Frm

end
-- ==== Proof.KFrame.lean ====
/-
  The squeeze-and-excitation kernel's frame: every weakly fair execution of its program terminates without a fault
  and leaves the five argument arrays as launched; and the result array after the run is named.

  The region has three windows on a grid of 16 points: window 0 the activations in blocks of four batch rows, window 1
  the whole packed parameter array (the same block at every point), window 2 the result in blocks of four batch rows.
  At a point the body loads the activation block whole, loads four rectangles of the parameter block (rows 0–31, rows
  32–63, the first 32 columns of row 64, row 65), and overwrites the whole result block with one value computed from
  those five loads. So after the body the two input buffers hold what they held and the result buffer holds that
  value; the proof data says exactly this, the body's triple is one run of the symbolic executor over the function's
  skeleton, and the launch theorem for a region between host operations gives the run.
-/
import proofs.«112386_g2000605190125749_pallasbulk_600_4_alg».proof.Proof.KEntry

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## An input window's buffer holds its block at every point -/

/-- The activation window's current staging buffer holds its block at every point, for any proof data whose array is
    the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The parameter window's staging buffer holds its block at every point: fetched at the first point, and the block
    index never moves. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the launch theorem's post read at the
    argument arrays is the frame claim's post: the activations are a staged input never written back, the four
    parameter arrays are staged by no window, and each is found as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's accesses -/

/-- The whole activation (and result) block. -/
abbrev rX : Rect S4x256x2048 := Rect.unit (s := S4x256x2048) ![0, 0, 0] S4x256x2048.size inb_S4x256x2048_S4x256x2048_0_0_0
/-- Rows 0–31 of the parameter block: the squeeze weights. -/
abbrev rW1 : Rect S72x256 := Rect.unit (s := S72x256) ![0, 0] S32x256.size inb_S72x256_S32x256_0_0
/-- Rows 32–63: the transposed excite weights. -/
abbrev rW2 : Rect S72x256 := Rect.unit (s := S72x256) ![32, 0] S32x256.size inb_S72x256_S32x256_32_0
/-- The first 32 columns of row 64: the squeeze bias. -/
abbrev rB1 : Rect S72x256 := Rect.unit (s := S72x256) ![64, 0] S1x32.size inb_S72x256_S1x32_64_0
/-- Row 65: the excite bias. -/
abbrev rB2 : Rect S72x256 := Rect.unit (s := S72x256) ![65, 0] S1x256.size inb_S72x256_S1x256_65_0

/-! ## What the body leaves in the result window's buffer -/

/-- The result buffer after the body, from the two input blocks: its one store, of the body's value of the five loads. -/
def out0_2 (x0 : Vec F S4x256x2048 .f32) (x1 : Vec F S72x256 .f32) : Vec F S4x256x2048 .f32 :=
  View.canon [⟨rX, k0_pay1 (View.ld x0 rX) (View.ld x1 rW1) (View.ld x1 rW2) (View.ld x1 rB1) (View.ld x1 rB2)⟩]

/-- The one store covers the buffer. -/
theorem cover0_2 (p0 : Vec F S4x256x2048 .f32) (y : S4x256x2048.Idx) :
    ∃ pc ∈ ([⟨rX, p0⟩] : List (View.Piece (Elt F) S4x256x2048 .f32)), y ∈ pc.1.set :=
  View.cover_of_tiled [⟨rX, p0⟩] S4x256x2048.size (by rfl) y

/-! ## The body's triple -/

set_option maxHeartbeats 1000000 in
/-- The body on whole staging memrefs, the inputs' at contents `x0`, `x1` and the result's at anything, runs to the
    continuation holding the inputs' as they were and the result's at `out0_2 x0 x1`. -/
theorem sound_kernel (c : Dev nD) (E : Set ℕ) (i : grid0.Coords) (arg1 : Memref sig .tc .vmem S4x256x2048 .f32) (harg1 : arg1.IsWhole) (arg2 : Memref sig .tc .vmem S72x256 .f32) (harg2 : arg2.IsWhole) (arg3 : Memref sig .tc .vmem S4x256x2048 .f32) (harg3 : arg3.IsWhole)
    (x0 : Vec F S4x256x2048 .f32) (x1 : Vec F S72x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__se_block_kernel i arg1 harg1 arg2 harg2 arg3 harg3) K := by
  simp only [cc0__se_block_kernel_eq_skeleton]; unfold cc0__se_block_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the one pipeline on core `c`: the arrays as the region finds them; after the body at point `t`
    each input's buffer at its block and the result's at `out0_2` of the two input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-! ## The result array after the run, named -/

/-- What point `t` writes back to the result array: the body's result buffer read through the window's block. -/
theorem flushed2 (c : Dev nD) (t : Fin cfg0.N) :
    (dats m 0 c).flushed 2 t = (cfg0.win 2).cut (grid0.coords t) (out0_2 (iblk m c 0 t) (iblk m c 1 t)) := by
  show (cfg0.win 2).cut (grid0.coords t) ((dats m 0 c).after 2 t) = _
  rw [after0_2]

/-- The frame run with the result array after the run named, the arguments unchanged. -/
theorem run_blocks : θ_run defs (onTc (τ := τ) (main (F := F))) ⟨m, fun _ => 0, ρ⟩ fun r => ∀ c : Dev nD,
      r.2.mem ((c : Thread nD τ).loc main_v11) = (dats m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 2,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.KernelIdeal.Frm

end
-- ==== Proof.KEntryBits.lean ====
/-
  The squeeze-and-excitation kernel's program up to its one region.

  @main is fifteen host operations and then the region. The host operations only lay the four parameter arrays out
  as one `[72, 256]` array: the squeeze weights as rows 0–31, the transposed excite weights as rows 32–63, the squeeze
  bias scattered into the first 32 columns of a zero row 64, the excite bias as row 65, six zero rows. None of them
  writes an argument array, so the region finds every argument as launched; `V` is what each buffer holds when the
  region is entered, and a window's block at a grid point is read off `V`.
-/
import proofs.«112386_g2000605190125749_pallasbulk_600_4_alg».proof.Proof.Gen.Kernel.Launch
import proofs.«112386_g2000605190125749_pallasbulk_600_4_alg».proof.Proof.Gen.Kernel.Skeleton
import proofs.«112386_g2000605190125749_pallasbulk_600_4_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main up to the region -/

/-- Core `c`'s buffers when the region is entered: after the fifteen host operations. -/
abbrev V (c : Dev nD) (b : Ref sig .tc) : Buf (Elt F) ((c : Thread nD τ).loc b) :=
  StableHlo.after Gen.hostOps0 (fun b => m (c, b)) b

/-- No host operation allocates a buffer. -/
theorem hostOps0_fresh : (Gen.hostOps0 : List (HloOp τ sig (Elt F))).Forall fun op => op.fresh = ∅ := by
  simp only [List.Forall]; repeat' constructor

/-- @main is the host operations and then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main Gen.hostOps0 Gen.hostOps0_sub hostOps0_fresh Gen.main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [Gen.hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [Gen.hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [Gen.hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [Gen.hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [Gen.hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

end Cert.Kernel.Frm

end
-- ==== Proof.KFrameBits.lean ====
/-
  The squeeze-and-excitation kernel's frame: every weakly fair execution of its program terminates without a fault
  and leaves the five argument arrays as launched; and the result array after the run is named.

  The region has three windows on a grid of 16 points: window 0 the activations in blocks of four batch rows, window 1
  the whole packed parameter array (the same block at every point), window 2 the result in blocks of four batch rows.
  At a point the body loads the activation block whole, loads four rectangles of the parameter block (rows 0–31, rows
  32–63, the first 32 columns of row 64, row 65), and overwrites the whole result block with one value computed from
  those five loads. So after the body the two input buffers hold what they held and the result buffer holds that
  value; the proof data says exactly this, the body's triple is one run of the symbolic executor over the function's
  skeleton, and the launch theorem for a region between host operations gives the run.
-/
import proofs.«112386_g2000605190125749_pallasbulk_600_4_alg».proof.Proof.KEntryBits

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## An input window's buffer holds its block at every point -/

/-- The activation window's current staging buffer holds its block at every point, for any proof data whose array is
    the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The parameter window's staging buffer holds its block at every point: fetched at the first point, and the block
    index never moves. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the launch theorem's post read at the
    argument arrays is the frame claim's post: the activations are a staged input never written back, the four
    parameter arrays are staged by no window, and each is found as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's accesses -/

/-- The whole activation (and result) block. -/
abbrev rX : Rect S4x256x2048 := Rect.unit (s := S4x256x2048) ![0, 0, 0] S4x256x2048.size inb_S4x256x2048_S4x256x2048_0_0_0
/-- Rows 0–31 of the parameter block: the squeeze weights. -/
abbrev rW1 : Rect S72x256 := Rect.unit (s := S72x256) ![0, 0] S32x256.size inb_S72x256_S32x256_0_0
/-- Rows 32–63: the transposed excite weights. -/
abbrev rW2 : Rect S72x256 := Rect.unit (s := S72x256) ![32, 0] S32x256.size inb_S72x256_S32x256_32_0
/-- The first 32 columns of row 64: the squeeze bias. -/
abbrev rB1 : Rect S72x256 := Rect.unit (s := S72x256) ![64, 0] S1x32.size inb_S72x256_S1x32_64_0
/-- Row 65: the excite bias. -/
abbrev rB2 : Rect S72x256 := Rect.unit (s := S72x256) ![65, 0] S1x256.size inb_S72x256_S1x256_65_0

/-! ## What the body leaves in the result window's buffer -/

/-- The result buffer after the body, from the two input blocks: its one store, of the body's value of the five loads. -/
def out0_2 (x0 : Vec F S4x256x2048 .f32) (x1 : Vec F S72x256 .f32) : Vec F S4x256x2048 .f32 :=
  View.canon [⟨rX, k0_pay1 (View.ld x0 rX) (View.ld x1 rW1) (View.ld x1 rW2) (View.ld x1 rB1) (View.ld x1 rB2)⟩]

/-- The one store covers the buffer. -/
theorem cover0_2 (p0 : Vec F S4x256x2048 .f32) (y : S4x256x2048.Idx) :
    ∃ pc ∈ ([⟨rX, p0⟩] : List (View.Piece (Elt F) S4x256x2048 .f32)), y ∈ pc.1.set :=
  View.cover_of_tiled [⟨rX, p0⟩] S4x256x2048.size (by rfl) y

/-! ## The body's triple -/

set_option maxHeartbeats 1000000 in
/-- The body on whole staging memrefs, the inputs' at contents `x0`, `x1` and the result's at anything, runs to the
    continuation holding the inputs' as they were and the result's at `out0_2 x0 x1`. -/
theorem sound_kernel (c : Dev nD) (E : Set ℕ) (i : grid0.Coords) (arg1 : Memref sig .tc .vmem S4x256x2048 .f32) (harg1 : arg1.IsWhole) (arg2 : Memref sig .tc .vmem S72x256 .f32) (harg2 : arg2.IsWhole) (arg3 : Memref sig .tc .vmem S4x256x2048 .f32) (harg3 : arg3.IsWhole)
    (x0 : Vec F S4x256x2048 .f32) (x1 : Vec F S72x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__se_block_kernel i arg1 harg1 arg2 harg2 arg3 harg3) K := by
  simp only [cc0__se_block_kernel_eq_skeleton]; unfold cc0__se_block_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the one pipeline on core `c`: the arrays as the region finds them; after the body at point `t`
    each input's buffer at its block and the result's at `out0_2` of the two input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-! ## The result array after the run, named -/

/-- What point `t` writes back to the result array: the body's result buffer read through the window's block. -/
theorem flushed2 (c : Dev nD) (t : Fin cfg0.N) :
    (dats m 0 c).flushed 2 t = (cfg0.win 2).cut (grid0.coords t) (out0_2 (iblk m c 0 t) (iblk m c 1 t)) := by
  show (cfg0.win 2).cut (grid0.coords t) ((dats m 0 c).after 2 t) = _
  rw [after0_2]

/-- The frame run with the result array after the run named, the arguments unchanged. -/
theorem run_blocks : θ_run defs (onTc (τ := τ) (main (F := F))) ⟨m, fun _ => 0, ρ⟩ fun r => ∀ c : Dev nD,
      r.2.mem ((c : Thread nD τ).loc main_v11) = (dats m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 2,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.Kernel.Frm

end
-- ==== Proof.LibScatterSet.lean ====
import Idealize.ShloMosaic.PureOps.ShapeOps
import Mathlib.Logic.Equiv.Defs

/-!
# A scatter whose combiner keeps the update

The host scatter is a left fold over the update indices in row-major order. Each step either
rewrites one element of the result (the one the update index lands on) or leaves the result
alone (the update index lands outside the operand). When the combiner returns its second
argument, the value found at a result index `i` after the whole fold is decided by the LAST
update index landing on `i`. Two consequences are proved here: if exactly one update index
lands on `i`, the result there is that update; if none does, the result there is the operand's
element.
-/

namespace Cert.Lib

open Idealize.ShloMosaic

section Fold

variable {ι σ α : Type}

/-- A left fold whose every step leaves an observed quantity `v` of the state alone: the
    observed quantity at the end is the one at the start. Here `P n` says "step `n` touches the
    observed quantity"; the hypothesis is that no element of the list does. -/
theorem foldl_obs_untouched (stp : σ → ι → σ) (v : σ → α) (P : ι → Prop)
    (hmiss : ∀ r n, ¬ P n → v (stp r n) = v r) :
    ∀ (L : List ι) (x : σ), (∀ n ∈ L, ¬ P n) → v (L.foldl stp x) = v x := by
  intro L
  induction L with
  | nil => intro x _; rfl
  | cons a L ih =>
    intro x h
    rw [List.foldl_cons, ih (stp x a) (fun n hn => h n (List.mem_cons_of_mem a hn)),
      hmiss x a (h a List.mem_cons_self)]

/-- A left fold over a list without repetitions in which exactly one element `n` touches the
    observed quantity `v`, setting it to `val n` whatever the state was: the observed quantity at
    the end is `val n`. Before `n` the state is arbitrary; at `n` the quantity becomes `val n`;
    after `n` nothing touches it, because any later element that did would equal `n`, and `n`
    does not occur twice. -/
theorem foldl_obs_set_once (stp : σ → ι → σ) (v : σ → α) (P : ι → Prop) (val : ι → α)
    (hhit : ∀ r n, P n → v (stp r n) = val n)
    (hmiss : ∀ r n, ¬ P n → v (stp r n) = v r) (n : ι) (hPn : P n) :
    ∀ (L : List ι) (x : σ), L.Nodup → n ∈ L → (∀ n' ∈ L, P n' → n' = n) →
      v (L.foldl stp x) = val n := by
  intro L
  induction L with
  | nil => intro x _ hmem; exact absurd hmem List.not_mem_nil
  | cons a L ih =>
    intro x hnd hmem huniq
    rw [List.foldl_cons]
    have hnd' := List.nodup_cons.1 hnd
    by_cases han : a = n
    · -- the head is the one touching element: the tail leaves the quantity alone
      subst han
      have htail : ∀ m ∈ L, ¬ P m := by
        intro m hm hPm
        have : m = a := huniq m (List.mem_cons_of_mem a hm) hPm
        exact hnd'.1 (this ▸ hm)
      rw [foldl_obs_untouched stp v P hmiss L (stp x a) htail, hhit x a hPn]
    · -- the touching element is in the tail
      have hmem' : n ∈ L := by
        rcases List.mem_cons.1 hmem with h | h
        · exact absurd h.symm han
        · exact h
      exact ih (stp x a) hnd'.2 hmem' (fun n' hn' => huniq n' (List.mem_cons_of_mem a hn'))

end Fold

section Scatter

variable {α : Type} {s si u : Shape} {w : Nat}

/-- One step of the scatter with the update-keeping combiner, read at a result index `i` the
    update index lands on: the update's element. -/
private theorem step_hit (d : ScatterDims s si u) (idx : IVec si w) (upd : u.Idx → α) (i : s.Idx)
    (r : s.Idx → α) (m : Fin u.numel) (h : d.resultIdx? (u.rowMajor.symm m) idx = some i) :
    (match d.resultIdx? (u.rowMajor.symm m) idx with
      | some j => fun i' => if i' = j then (fun (_ b : α) => b) (r j) (upd (u.rowMajor.symm m)) else r i'
      | none => r) i = upd (u.rowMajor.symm m) := by
  rw [h]
  exact if_pos rfl

/-- One step of the scatter, read at a result index `i` the update index does not land on: the
    element that was there. -/
private theorem step_miss (d : ScatterDims s si u) (idx : IVec si w) (upd : u.Idx → α) (i : s.Idx)
    (r : s.Idx → α) (m : Fin u.numel) (h : d.resultIdx? (u.rowMajor.symm m) idx ≠ some i) :
    (match d.resultIdx? (u.rowMajor.symm m) idx with
      | some j => fun i' => if i' = j then (fun (_ b : α) => b) (r j) (upd (u.rowMajor.symm m)) else r i'
      | none => r) i = r i := by
  generalize d.resultIdx? (u.rowMajor.symm m) idx = o at h
  cases o with
  | none => rfl
  | some j =>
    have hij : i ≠ j := fun e => h (by rw [e])
    exact if_neg hij

/-- A scatter whose combiner keeps the update, at a result index `i` on which exactly one
    update index `n` lands (`n` lands on `i`, and every update index landing on `i` is `n`): the
    result's element there is the update's element at `n`. -/
theorem scatter_set_hit (d : ScatterDims s si u) (x : s.Idx → α) (idx : IVec si w) (upd : u.Idx → α)
    (i : s.Idx) (n : u.Idx) (hn : d.resultIdx? n idx = some i)
    (huniq : ∀ n' : u.Idx, d.resultIdx? n' idx = some i → n' = n) :
    Host.scatter d (fun _ b => b) x idx upd i = upd n := by
  unfold Host.scatter
  have key := foldl_obs_set_once
    (stp := fun (r : s.Idx → α) (m : Fin u.numel) =>
      match d.resultIdx? (u.rowMajor.symm m) idx with
      | some j => fun i' => if i' = j then (fun (_ b : α) => b) (r j) (upd (u.rowMajor.symm m)) else r i'
      | none => r)
    (v := fun r => r i)
    (P := fun m => d.resultIdx? (u.rowMajor.symm m) idx = some i)
    (val := fun m => upd (u.rowMajor.symm m))
    (fun r m h => step_hit d idx upd i r m h)
    (fun r m h => step_miss d idx upd i r m h)
    (u.rowMajor n) (by show d.resultIdx? (u.rowMajor.symm (u.rowMajor n)) idx = some i
                       rw [Equiv.symm_apply_apply]; exact hn)
    (List.finRange u.numel) x (List.nodup_finRange _) (List.mem_finRange _)
    (fun m _ hm => by
      have := huniq (u.rowMajor.symm m) hm
      exact (Equiv.symm_apply_eq _).1 this)
  simp only [Equiv.symm_apply_apply] at key
  exact key

/-- A scatter whose combiner keeps the update, at a result index `i` on which no update index
    lands: the result's element there is the operand's. -/
theorem scatter_set_miss (d : ScatterDims s si u) (x : s.Idx → α) (idx : IVec si w) (upd : u.Idx → α)
    (i : s.Idx) (hmiss : ∀ n : u.Idx, d.resultIdx? n idx ≠ some i) :
    Host.scatter d (fun _ b => b) x idx upd i = x i := by
  unfold Host.scatter
  exact foldl_obs_untouched
    (stp := fun (r : s.Idx → α) (m : Fin u.numel) =>
      match d.resultIdx? (u.rowMajor.symm m) idx with
      | some j => fun i' => if i' = j then (fun (_ b : α) => b) (r j) (upd (u.rowMajor.symm m)) else r i'
      | none => r)
    (v := fun r => r i)
    (P := fun m => d.resultIdx? (u.rowMajor.symm m) idx = some i)
    (fun r m h => step_miss d idx upd i r m h)
    (List.finRange u.numel) x (fun m _ => hmiss (u.rowMajor.symm m))

end Scatter

end Cert.Lib
-- ==== Proof.KPacked.lean ====
/-
  The packed parameter array as the region finds it, row by row, in terms of the four parameter arguments.
-/
import proofs.«112386_g2000605190125749_pallasbulk_600_4_alg».proof.Proof.KEntry
import Idealize.ShloMosaic.Lib.ValueIdx
import Idealize.ShloMosaic.Lib.ValueLayout
import Idealize.ShloMosaic.Lib.Pipeline.Value
import Idealize.ShloMosaic.Lib.StableHlo.Run
import proofs.«112386_g2000605190125749_pallasbulk_600_4_alg».proof.Proof.LibScatterSet

set_option maxRecDepth 16384

noncomputable section

namespace Cert.KernelIdeal.SePacked

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (c : Dev nD)

/-! ## The packed array as a concatenation, and its pieces -/

/-- The index vector of the scatter: two zero words. -/
abbrev zeroIdx : S2.Idx → BitVec 32 :=
  concatenate S2 0 [⟨S1, (broadcastInDim S1 ![] bcast_S_S1 (constantI S_ 32 0#32) : S1.Idx → BitVec 32)⟩,
    ⟨S1, (broadcastInDim S1 ![] bcast_S_S1 (constantI S_ 32 0#32) : S1.Idx → BitVec 32)⟩] concatenates_S1_S1_S2_d0

/-- The concatenation's result is the concatenation of what its five operands hold. -/
theorem v10_step (R : Valuation τ sig (Elt Ideal)) (hxs hy) :
    (StableHlo.nary (τ := τ) ![main_v0, main_v2, main_v7, main_v8, main_v9] main_v10
      (fun u => concatenate S72x256 0 [⟨S32x256, u 0⟩, ⟨S32x256, u 1⟩, ⟨S1x256, u 2⟩, ⟨S1x256, u 3⟩, ⟨S6x256, u 4⟩]
        concatenates_S32x256_S32x256_S1x256_S1x256_S6x256_S72x256_d0) hxs hy).result R (Proc.devRef .tc main_v10)
      = concatenate S72x256 0 [⟨S32x256, R (Proc.devRef .tc main_v0)⟩, ⟨S32x256, R (Proc.devRef .tc main_v2)⟩,
          ⟨S1x256, R (Proc.devRef .tc main_v7)⟩, ⟨S1x256, R (Proc.devRef .tc main_v8)⟩, ⟨S6x256, R (Proc.devRef .tc main_v9)⟩]
        concatenates_S32x256_S32x256_S1x256_S1x256_S6x256_S72x256_d0 := by
  rw [StableHlo.nary_result]
  rfl

/-- The packed array is the concatenation along the rows of the five arrays the earlier operations built. -/
theorem v10_eq : (Frm.V m c main_v10 : S72x256.Idx → EReal) = concatenate S72x256 0
    [⟨S32x256, (Frm.V m c main_v0 : S32x256.Idx → EReal)⟩, ⟨S32x256, (Frm.V m c main_v2 : S32x256.Idx → EReal)⟩,
     ⟨S1x256, (Frm.V m c main_v7 : S1x256.Idx → EReal)⟩, ⟨S1x256, (Frm.V m c main_v8 : S1x256.Idx → EReal)⟩,
     ⟨S6x256, (Frm.V m c main_v9 : S6x256.Idx → EReal)⟩]
    concatenates_S32x256_S32x256_S1x256_S1x256_S6x256_S72x256_d0 := by
  show StableHlo.after Gen.hostOps0 (fun b => m (c, b)) (Proc.devRef .tc main_v10) = concatenate S72x256 0
    [⟨S32x256, StableHlo.after Gen.hostOps0 (fun b => m (c, b)) (Proc.devRef .tc main_v0)⟩,
     ⟨S32x256, StableHlo.after Gen.hostOps0 (fun b => m (c, b)) (Proc.devRef .tc main_v2)⟩,
     ⟨S1x256, StableHlo.after Gen.hostOps0 (fun b => m (c, b)) (Proc.devRef .tc main_v7)⟩,
     ⟨S1x256, StableHlo.after Gen.hostOps0 (fun b => m (c, b)) (Proc.devRef .tc main_v8)⟩,
     ⟨S6x256, StableHlo.after Gen.hostOps0 (fun b => m (c, b)) (Proc.devRef .tc main_v9)⟩] _
  simp only [StableHlo.after_cons, StableHlo.after_nil]
  rw [v10_step]
  repeat (rw [StableHlo.nary_result_ne]; rotate_left; decide)

/-- The first piece: the squeeze weights without their unit axis. -/
theorem V_v0 : (Frm.V m c main_v0 : S32x256.Idx → EReal)
    = shapeCast S32x256 (m ((c : Thread nD τ).loc main_arg1) : S32x256x1.Idx → EReal) shapeCasts_S32x256x1_S32x256 := by
  show StableHlo.after Gen.hostOps0 (fun b => m (c, b)) (Proc.devRef .tc main_v0) = _
  after_results
  rfl

/-- The second piece: the excite weights without their unit axis, transposed. -/
theorem V_v2 : (Frm.V m c main_v2 : S32x256.Idx → EReal)
    = transpose S32x256 [1, 0]
        (shapeCast S256x32 (m ((c : Thread nD τ).loc main_arg3) : S256x32x1.Idx → EReal) shapeCasts_S256x32x1_S256x32)
        transposes_S256x32_S32x256_1_0 := by
  show StableHlo.after Gen.hostOps0 (fun b => m (c, b)) (Proc.devRef .tc main_v2) = _
  after_results
  rfl

/-- The third piece: the squeeze bias scattered into a row of zeros at start index (0, 0). -/
theorem V_v7 : (Frm.V m c main_v7 : S1x256.Idx → EReal)
    = Host.scatter scatter_S1x256_S2_S32_0_0_01_0 (fun _ b => b)
        (broadcastInDim S1x256 ![] bcast_S_S1x256 (constant (F := Ideal) S_ .f32 0x00000000#32))
        zeroIdx (m ((c : Thread nD τ).loc main_arg2) : S32.Idx → EReal) := by
  show StableHlo.after Gen.hostOps0 (fun b => m (c, b)) (Proc.devRef .tc main_v7) = _
  after_results

/-- The fourth piece: the excite bias as a row. -/
theorem V_v8 : (Frm.V m c main_v8 : S1x256.Idx → EReal)
    = shapeCast S1x256 (m ((c : Thread nD τ).loc main_arg4) : S256.Idx → EReal) shapeCasts_S256_S1x256 := by
  show StableHlo.after Gen.hostOps0 (fun b => m (c, b)) (Proc.devRef .tc main_v8) = _
  after_results
  rfl

/-! ## Where the bias scatter's updates land -/

/-- Where an update of the bias scatter lands when both words of the start index are zero: update `k` at column
    `k` of the one row. The index map names both operand axes, so the start on each axis is the index word for it,
    read signed; the row axis is inserted (window coordinate 0) and the column axis carries the update's coordinate. -/
theorem biasScatter_resultIdx (idx : IVec S2 32) (h0 : idx (ix1 0) = 0#32) (h1 : idx (ix1 1) = 0#32) (k : Fin 32) :
    scatter_S1x256_S2_S32_0_0_01_0.resultIdx? (ix1 k) idx = some (ix2 0 ⟨k.val, by omega⟩) := by
  have hs0 : scatter_S1x256_S2_S32_0_0_01_0.start (ix1 k) idx (0 : Fin 2) = 0 := by
    unfold ScatterDims.start
    have m0 : (0 : Fin 2) ∈ scatter_S1x256_S2_S32_0_0_01_0.scatterDimsToOperandDims :=
      show (0 : Fin 2) ∈ ([0, 1] : List (Fin 2)) from by decide
    rw [dif_pos m0]
    have hsi : scatter_S1x256_S2_S32_0_0_01_0.siIdx (ix1 k)
        ⟨List.idxOf (0 : Fin 2) scatter_S1x256_S2_S32_0_0_01_0.scatterDimsToOperandDims,
          List.idxOf_lt_length_iff.2 m0⟩ = ix1 0 := by
      funext b; refine Fin.ext ?_
      match b with
      | ⟨0, _⟩ => rfl
    rw [hsi, h0]
    rfl
  have hs1 : scatter_S1x256_S2_S32_0_0_01_0.start (ix1 k) idx (1 : Fin 2) = 0 := by
    unfold ScatterDims.start
    have m1 : (1 : Fin 2) ∈ scatter_S1x256_S2_S32_0_0_01_0.scatterDimsToOperandDims :=
      show (1 : Fin 2) ∈ ([0, 1] : List (Fin 2)) from by decide
    rw [dif_pos m1]
    have hsi : scatter_S1x256_S2_S32_0_0_01_0.siIdx (ix1 k)
        ⟨List.idxOf (1 : Fin 2) scatter_S1x256_S2_S32_0_0_01_0.scatterDimsToOperandDims,
          List.idxOf_lt_length_iff.2 m1⟩ = ix1 1 := by
      funext b; refine Fin.ext ?_
      match b with
      | ⟨0, _⟩ => rfl
    rw [hsi, h1]
    rfl
  have hw0 : scatter_S1x256_S2_S32_0_0_01_0.window (ix1 k) (0 : Fin 2) = 0 := by
    unfold ScatterDims.window
    rw [dif_neg]
    show (0 : Fin 2) ∉ S1x256.kept [0]
    decide
  have hw1 : scatter_S1x256_S2_S32_0_0_01_0.window (ix1 k) (1 : Fin 2) = k.val := by
    unfold ScatterDims.window
    rw [dif_pos (show (1 : Fin 2) ∈ scatter_S1x256_S2_S32_0_0_01_0.sKept from
      show (1 : Fin 2) ∈ S1x256.kept [0] from by decide)]
    rfl
  have hk := k.isLt
  have z0 : S1x256.size (0 : Fin 2) = 1 := rfl
  have z1 : S1x256.size (1 : Fin 2) = 256 := rfl
  -- on each axis the landing coordinate is inside the operand
  have hin0 : 0 ≤ scatter_S1x256_S2_S32_0_0_01_0.start (ix1 k) idx 0
        + (scatter_S1x256_S2_S32_0_0_01_0.window (ix1 k) 0 : Nat)
      ∧ scatter_S1x256_S2_S32_0_0_01_0.start (ix1 k) idx 0
        + (scatter_S1x256_S2_S32_0_0_01_0.window (ix1 k) 0 : Nat) < (S1x256.size 0 : Nat) := by
    rw [hs0, hw0, z0]; omega
  have hin1 : 0 ≤ scatter_S1x256_S2_S32_0_0_01_0.start (ix1 k) idx 1
        + (scatter_S1x256_S2_S32_0_0_01_0.window (ix1 k) 1 : Nat)
      ∧ scatter_S1x256_S2_S32_0_0_01_0.start (ix1 k) idx 1
        + (scatter_S1x256_S2_S32_0_0_01_0.window (ix1 k) 1 : Nat) < (S1x256.size 1 : Nat) := by
    rw [hs1, hw1, z1]; omega
  have hin : ∀ a, 0 ≤ scatter_S1x256_S2_S32_0_0_01_0.start (ix1 k) idx a
        + (scatter_S1x256_S2_S32_0_0_01_0.window (ix1 k) a : Nat)
      ∧ scatter_S1x256_S2_S32_0_0_01_0.start (ix1 k) idx a
        + (scatter_S1x256_S2_S32_0_0_01_0.window (ix1 k) a : Nat) < (S1x256.size a : Nat) := fun a =>
    match a with
    | ⟨0, _⟩ => hin0
    | ⟨1, _⟩ => hin1
  -- and it is row 0, column k
  have e0 : (scatter_S1x256_S2_S32_0_0_01_0.start (ix1 k) idx 0
      + (scatter_S1x256_S2_S32_0_0_01_0.window (ix1 k) 0 : Nat)).toNat = 0 := by
    rw [hs0, hw0]; rfl
  have e1 : (scatter_S1x256_S2_S32_0_0_01_0.start (ix1 k) idx 1
      + (scatter_S1x256_S2_S32_0_0_01_0.window (ix1 k) 1 : Nat)).toNat = k.val := by
    rw [hs1, hw1]; omega
  unfold ScatterDims.resultIdx?
  rw [dif_pos hin]
  congr 1
  funext a
  refine Fin.ext ?_
  match a with
  | ⟨0, _⟩ => exact e0
  | ⟨1, _⟩ => exact e1

/-! ## The four row ranges -/

/-- The first word of the scatter's start index is zero. -/
theorem zeroIdx_zero : zeroIdx (ix1 0) = 0#32 := rfl
/-- The second word likewise. -/
theorem zeroIdx_one : zeroIdx (ix1 1) = 0#32 := rfl

/-- Off the row axis, an index of a piece and the packed array's index it sits at have the same coordinate. -/
theorem off_rows {R : Nat} (r : Fin R) (r' : Fin 72) (c' : Fin 256)
    (hr : (⟨2, ![R, 256]⟩ : Shape).rank = S72x256.rank) :
    ∀ b : Fin (⟨2, ![R, 256]⟩ : Shape).rank, b.cast hr ≠ (0 : Fin S72x256.rank) →
      ((ix2 r c' : (⟨2, ![R, 256]⟩ : Shape).Idx) b).val = ((ix2 r' c' : S72x256.Idx) (b.cast hr)).val := by
  intro b hb
  match b, hb with
  | ⟨0, _⟩, hb => exact absurd rfl hb
  | ⟨1, _⟩, _ => rfl

/-- Rows 0–31 are the squeeze weights. -/
theorem packed_w1 (j : Fin 32) (c' : Fin 256) :
    (Frm.V m c main_v10 : S72x256.Idx → EReal) (ix2 ⟨j.val, by omega⟩ c')
      = (m ((c : Thread nD τ).loc main_arg1) : S32x256x1.Idx → EReal) (ix3 j c' 0) := by
  rw [v10_eq]
  -- row j lies in the first piece, at its row j
  refine (concatenate_apply_piece _ _ _ _ 0 ?_ S32x256
    (Frm.V m c main_v0 : S32x256.Idx → EReal) ?_ ?_ 0 ?_ (ix2 j c') ?_ ?_).trans ?_
  · exact (by decide : (0 : Nat) < 5)
  · rfl
  · rfl
  · rfl
  · exact off_rows _ _ _ _
  · exact Nat.zero_add _
  rw [V_v0]
  -- dropping the unit axis keeps the row-major position
  refine shapeCast_apply _ _ (ix2 j c') (ix3 j c' 0) ?_
  rw [Shape.rowMajor_val_three, Shape.rowMajor_val_two]
  show (j.val * 256 + c'.val) * 1 + 0 = j.val * 256 + c'.val
  omega

/-- Rows 32–63 are the excite weights transposed. -/
theorem packed_w2 (j : Fin 32) (c' : Fin 256) :
    (Frm.V m c main_v10 : S72x256.Idx → EReal) (ix2 ⟨32 + j.val, by omega⟩ c')
      = (m ((c : Thread nD τ).loc main_arg3) : S256x32x1.Idx → EReal) (ix3 c' j 0) := by
  rw [v10_eq]
  -- row 32 + j lies in the second piece, past the 32 rows of the first, at its row j
  refine (concatenate_apply_piece _ _ _ _ 1 ?_ S32x256
    (Frm.V m c main_v2 : S32x256.Idx → EReal) ?_ ?_ 32 ?_ (ix2 j c') ?_ ?_).trans ?_
  · exact (by decide : (1 : Nat) < 5)
  · rfl
  · rfl
  · rfl
  · exact off_rows _ _ _ _
  · rfl
  rw [V_v2]
  -- the transpose reads the source at the swapped coordinates
  refine (transpose_apply [1, 0] _ _ (ix2 j c') (ix2 c' j) ?_).trans ?_
  · intro b
    match b with
    | ⟨0, _⟩ => rfl
    | ⟨1, _⟩ => rfl
  -- dropping the unit axis keeps the row-major position
  refine shapeCast_apply _ _ (ix2 c' j) (ix3 c' j 0) ?_
  rw [Shape.rowMajor_val_three, Shape.rowMajor_val_two]
  show (c'.val * 32 + j.val) * 1 + 0 = c'.val * 32 + j.val
  omega

/-- The first 32 columns of row 64 are the squeeze bias. -/
theorem packed_b1 (j : Fin 32) :
    (Frm.V m c main_v10 : S72x256.Idx → EReal) (ix2 ⟨64, by omega⟩ ⟨j.val, by omega⟩)
      = (m ((c : Thread nD τ).loc main_arg2) : S32.Idx → EReal) (ix1 j) := by
  rw [v10_eq]
  -- row 64 is the third piece's one row, past the 64 rows of the first two
  refine (concatenate_apply_piece _ _ _ _ 2 ?_ S1x256
    (Frm.V m c main_v7 : S1x256.Idx → EReal) ?_ ?_ 64 ?_ (ix2 0 ⟨j.val, by omega⟩) ?_ ?_).trans ?_
  · exact (by decide : (2 : Nat) < 5)
  · rfl
  · rfl
  · rfl
  · exact off_rows _ _ _ _
  · rfl
  rw [V_v7]
  -- update j, and no other, lands on column j
  refine Cert.Lib.scatter_set_hit _ _ _ _ (ix2 0 ⟨j.val, by omega⟩) (ix1 j)
    (biasScatter_resultIdx zeroIdx zeroIdx_zero zeroIdx_one j) ?_
  intro n' hn'
  obtain ⟨k, rfl⟩ : ∃ k, n' = ix1 k := ⟨n' 0, eq_ix1 n'⟩
  rw [biasScatter_resultIdx zeroIdx zeroIdx_zero zeroIdx_one k] at hn'
  have hkj : k.val = j.val := by
    have h1 := congrFun (Option.some.inj hn') 1
    have h2 := congrArg Fin.val h1
    exact h2
  rw [Fin.ext hkj]

/-- Row 65 is the excite bias. -/
theorem packed_b2 (c' : Fin 256) :
    (Frm.V m c main_v10 : S72x256.Idx → EReal) (ix2 ⟨65, by omega⟩ c')
      = (m ((c : Thread nD τ).loc main_arg4) : S256.Idx → EReal) (ix1 c') := by
  rw [v10_eq]
  -- row 65 is the fourth piece's one row, past the 65 rows before it
  refine (concatenate_apply_piece _ _ _ _ 3 ?_ S1x256
    (Frm.V m c main_v8 : S1x256.Idx → EReal) ?_ ?_ 65 ?_ (ix2 0 c') ?_ ?_).trans ?_
  · exact (by decide : (3 : Nat) < 5)
  · rfl
  · rfl
  · rfl
  · exact off_rows _ _ _ _
  · rfl
  rw [V_v8]
  -- adding a unit row axis keeps the row-major position
  refine shapeCast_apply _ _ (ix2 0 c') (ix1 c') ?_
  rw [Shape.rowMajor_val_one, Shape.rowMajor_val_two]
  show c'.val = 0 * 256 + c'.val
  omega

end Cert.KernelIdeal.SePacked

end
-- ==== Proof.KPayload.lean ====
/-
  The squeeze-and-excitation kernel body's value at one element of the result block.
-/
import proofs.«112386_g2000605190125749_pallasbulk_600_4_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.SeBody

open Cert.KernelIdeal Cert.KernelIdeal.Gen Idealize.ShloMosaic Idealize.ShloMosaic.ValueIdx

/-- The sum over the positions of one row and channel. -/
theorem laneSum_apply (x0 : FVec Ideal S4x256x2048 .f32) (h : S4x256x2048.Reduces [2] S4x256) (hφ : FKind.Formats .f32)
    (hacc : (0x00000000#32 : BitVec 32) = FKind.add.neutral .f32 hφ) (b : Fin 4) (c : Fin 256) :
    multiReduction (F := Ideal) .add [2] S4x256 x0 0x00000000#32 h hφ hacc (ix2 b c) = ∑ l : Fin 2048, x0 (ix3 b c l) := by
  refine (Ideal.multiReduction_add_single x0 0x00000000#32 h hφ hacc (ix2 b c)).trans ?_
  refine Finset.sum_congr rfl fun l _ => congrArg x0 ?_
  funext a
  match a with
  | ⟨0, _⟩ => exact Fin.ext rfl
  | ⟨1, _⟩ => exact Fin.ext rfl
  | ⟨2, _⟩ => exact Fin.ext rfl

/-- The gate's column, spread along the positions: a [4,256] array viewed [4,256,1] and broadcast to [4,256,2048]
    reads, at (b, c, l), the array at (b, c). -/
theorem spread_apply {α : Type} (g : S4x256.Idx → α) (h1 : S4x256.ShapeCasts S4x256x1) (h2 : S4x256x1.Broadcasts S4x256x2048)
    (b : Fin 4) (c : Fin 256) (l : Fin 2048) :
    broadcastTo S4x256x2048 (shapeCast S4x256x1 g h1) h2 (ix3 b c l) = g (ix2 b c) := by
  refine (broadcastTo_apply _ h2 (ix3 b c l) (ix3 b c (0 : Fin 1)) fun a => ?_).trans ?_
  · match a with
    | ⟨0, _⟩ => rfl
    | ⟨1, _⟩ => rfl
    | ⟨2, _⟩ => rfl
  · refine shapeCast_apply g h1 _ _ ?_
    rw [Shape.rowMajor_val_three, Shape.rowMajor_val_two]
    show b.val * 256 + c.val = (b.val * 256 + c.val) * 1 + 0
    omega

/-! ### The two contractions' operand indices, coordinate by coordinate -/

theorem lhsA_0 (j : S4x32.Idx) (k : dot_S4x256_S32x256_S4x32_1_1_0_0_n_n.contr.Idx) :
    (dot_S4x256_S32x256_S4x32_1_1_0_0_n_n.lhsIdx j k 0).val = (j 0).val := by
  unfold DotDims.lhsIdx
  rw [dif_neg (show ¬(0 : Fin S4x256.rank) ∈ dot_S4x256_S32x256_S4x32_1_1_0_0_n_n.lhsBatch by decide),
    dif_pos (show (0 : Fin S4x256.rank) ∈ dot_S4x256_S32x256_S4x32_1_1_0_0_n_n.lhsNonContracting by decide)]
  rfl

theorem lhsA_1 (j : S4x32.Idx) (k : dot_S4x256_S32x256_S4x32_1_1_0_0_n_n.contr.Idx) :
    (dot_S4x256_S32x256_S4x32_1_1_0_0_n_n.lhsIdx j k 1).val = (k ⟨0, by decide⟩).val :=
  dot_S4x256_S32x256_S4x32_1_1_0_0_n_n.lhsIdx_val_of_single rfl j k

theorem rhsA_0 (j : S4x32.Idx) (k : dot_S4x256_S32x256_S4x32_1_1_0_0_n_n.contr.Idx) :
    (dot_S4x256_S32x256_S4x32_1_1_0_0_n_n.rhsIdx j k 0).val = (j 1).val := by
  unfold DotDims.rhsIdx
  rw [dif_neg (show ¬(0 : Fin S32x256.rank) ∈ dot_S4x256_S32x256_S4x32_1_1_0_0_n_n.rhsBatch by decide),
    dif_pos (show (0 : Fin S32x256.rank) ∈ dot_S4x256_S32x256_S4x32_1_1_0_0_n_n.rhsNonContracting by decide)]
  rfl

theorem rhsA_1 (j : S4x32.Idx) (k : dot_S4x256_S32x256_S4x32_1_1_0_0_n_n.contr.Idx) :
    (dot_S4x256_S32x256_S4x32_1_1_0_0_n_n.rhsIdx j k 1).val = (k ⟨0, by decide⟩).val :=
  dot_S4x256_S32x256_S4x32_1_1_0_0_n_n.rhsIdx_val_of_single rfl j k

/-- The first contraction, over the channels of both operands: at (b, j) the sum over the channels of the products. -/
theorem squeeze_apply (A : FVec Ideal S4x256 .f32) (B : FVec Ideal S32x256 .f32) (b : Fin 4) (j : Fin 32) :
    matmul (F := Ideal) dot_S4x256_S32x256_S4x32_1_1_0_0_n_n (some .fp32) A B (constant (F := Ideal) S4x32 .f32 0x00000000#32) (ix2 b j)
      = ∑ c : Fin 256, A (ix2 b c) * B (ix2 j c) := by
  refine (Ideal.matmul_constant_zero_apply _ _ A B (ix2 b j)).trans ?_
  rw [← Equiv.sum_comp (contrEquiv1 dot_S4x256_S32x256_S4x32_1_1_0_0_n_n 256 rfl rfl).symm]
  refine Finset.sum_congr rfl fun c _ => ?_
  have hk := contrEquiv1_symm_val dot_S4x256_S32x256_S4x32_1_1_0_0_n_n 256 rfl rfl c
  have hl : dot_S4x256_S32x256_S4x32_1_1_0_0_n_n.lhsIdx (ix2 b j) ((contrEquiv1 _ 256 rfl rfl).symm c) = ix2 b c := by
    funext ax; apply Fin.ext
    match ax with
    | ⟨0, _⟩ => exact lhsA_0 _ _
    | ⟨1, _⟩ => exact (lhsA_1 _ _).trans hk
  have hr : dot_S4x256_S32x256_S4x32_1_1_0_0_n_n.rhsIdx (ix2 b j) ((contrEquiv1 _ 256 rfl rfl).symm c) = ix2 j c := by
    funext ax; apply Fin.ext
    match ax with
    | ⟨0, _⟩ => exact rhsA_0 _ _
    | ⟨1, _⟩ => exact (rhsA_1 _ _).trans hk
  rw [hl, hr]

theorem lhsB_0 (j : S4x256.Idx) (k : dot_S4x32_S32x256_S4x256_1_0_0_1_n_n.contr.Idx) :
    (dot_S4x32_S32x256_S4x256_1_0_0_1_n_n.lhsIdx j k 0).val = (j 0).val := by
  unfold DotDims.lhsIdx
  rw [dif_neg (show ¬(0 : Fin S4x32.rank) ∈ dot_S4x32_S32x256_S4x256_1_0_0_1_n_n.lhsBatch by decide),
    dif_pos (show (0 : Fin S4x32.rank) ∈ dot_S4x32_S32x256_S4x256_1_0_0_1_n_n.lhsNonContracting by decide)]
  rfl

theorem lhsB_1 (j : S4x256.Idx) (k : dot_S4x32_S32x256_S4x256_1_0_0_1_n_n.contr.Idx) :
    (dot_S4x32_S32x256_S4x256_1_0_0_1_n_n.lhsIdx j k 1).val = (k ⟨0, by decide⟩).val :=
  dot_S4x32_S32x256_S4x256_1_0_0_1_n_n.lhsIdx_val_of_single rfl j k

theorem rhsB_0 (j : S4x256.Idx) (k : dot_S4x32_S32x256_S4x256_1_0_0_1_n_n.contr.Idx) :
    (dot_S4x32_S32x256_S4x256_1_0_0_1_n_n.rhsIdx j k 0).val = (k ⟨0, by decide⟩).val :=
  dot_S4x32_S32x256_S4x256_1_0_0_1_n_n.rhsIdx_val_of_single rfl j k

theorem rhsB_1 (j : S4x256.Idx) (k : dot_S4x32_S32x256_S4x256_1_0_0_1_n_n.contr.Idx) :
    (dot_S4x32_S32x256_S4x256_1_0_0_1_n_n.rhsIdx j k 1).val = (j 1).val := by
  unfold DotDims.rhsIdx
  rw [dif_neg (show ¬(1 : Fin S32x256.rank) ∈ dot_S4x32_S32x256_S4x256_1_0_0_1_n_n.rhsBatch by decide),
    dif_pos (show (1 : Fin S32x256.rank) ∈ dot_S4x32_S32x256_S4x256_1_0_0_1_n_n.rhsNonContracting by decide)]
  rfl

/-- The second contraction, a plain matrix product: at (b, c) the sum over the 32 hidden units of the products. -/
theorem excite_apply (A : FVec Ideal S4x32 .f32) (B : FVec Ideal S32x256 .f32) (b : Fin 4) (c : Fin 256) :
    matmul (F := Ideal) dot_S4x32_S32x256_S4x256_1_0_0_1_n_n (some .fp32) A B (constant (F := Ideal) S4x256 .f32 0x00000000#32) (ix2 b c)
      = ∑ j : Fin 32, A (ix2 b j) * B (ix2 j c) := by
  refine (Ideal.matmul_constant_zero_apply _ _ A B (ix2 b c)).trans ?_
  rw [← Equiv.sum_comp (contrEquiv1 dot_S4x32_S32x256_S4x256_1_0_0_1_n_n 32 rfl rfl).symm]
  refine Finset.sum_congr rfl fun j _ => ?_
  have hk := contrEquiv1_symm_val dot_S4x32_S32x256_S4x256_1_0_0_1_n_n 32 rfl rfl j
  have hl : dot_S4x32_S32x256_S4x256_1_0_0_1_n_n.lhsIdx (ix2 b c) ((contrEquiv1 _ 32 rfl rfl).symm j) = ix2 b j := by
    funext ax; apply Fin.ext
    match ax with
    | ⟨0, _⟩ => exact lhsB_0 _ _
    | ⟨1, _⟩ => exact (lhsB_1 _ _).trans hk
  have hr : dot_S4x32_S32x256_S4x256_1_0_0_1_n_n.rhsIdx (ix2 b c) ((contrEquiv1 _ 32 rfl rfl).symm j) = ix2 j c := by
    funext ax; apply Fin.ext
    match ax with
    | ⟨0, _⟩ => exact (rhsB_0 _ _).trans hk
    | ⟨1, _⟩ => exact rhsB_1 _ _
  rw [hl, hr]

/-- The body's stored value at batch row `b` of the block, channel `c`, position `l`, from its five loads: the
    activation times the logistic gate of its row and channel. -/
theorem pay_apply (x0 : Vec Ideal S4x256x2048 .f32) (p0 p1 : Vec Ideal S32x256 .f32) (p2 : Vec Ideal S1x32 .f32)
    (p3 : Vec Ideal S1x256 .f32) (b : Fin 4) (c : Fin 256) (l : Fin 2048) :
    k0_pay1 (F := Ideal) x0 p0 p1 p2 p3 (ix3 b c l)
      = x0 (ix3 b c l) * Ideal.logistic ((∑ j : Fin 32,
          max ((∑ c' : Fin 256, ((∑ l' : Fin 2048, x0 (ix3 b c' l')) * Ideal.ofBits .f32 0x3A000000#32) * p0 (ix2 j c'))
                + p2 (ix2 0 j)) (Ideal.ofBits .f32 0x00000000#32) * p1 (ix2 j c)) + p3 (ix2 0 c)) := by
  unfold k0_pay1
  simp only [shapeCast_self]
  refine (mulf_apply _ _ _).trans (congrArg (x0 (ix3 b c l) * ·) ?_)
  refine (spread_apply _ _ _ b c l).trans ?_
  show Ideal.logistic _ = _
  refine congrArg Ideal.logistic ?_
  refine (addf_apply _ _ _).trans ?_
  refine congrArg₂ (· + ·) ?_ ?_
  · refine (excite_apply _ _ b c).trans (Finset.sum_congr rfl fun j _ => ?_)
    refine congrArg (· * p1 (ix2 j c)) ?_
    refine (maximumf_apply _ _ _).trans ?_
    refine congrArg₂ max ?_ rfl
    refine (addf_apply _ _ _).trans ?_
    refine congrArg₂ (· + ·) ?_ ?_
    · refine (squeeze_apply _ _ b j).trans (Finset.sum_congr rfl fun c' _ => ?_)
      refine congrArg (· * p0 (ix2 j c')) ?_
      refine (mulf_apply _ _ _).trans ?_
      refine congrArg₂ (· * ·) (laneSum_apply x0 _ _ _ b c') rfl
    · exact broadcastTo_1b_ab_apply _ _ b j
  · exact broadcastTo_1b_ab_apply _ _ b c

end Cert.KernelIdeal.SeBody

end
-- ==== Proof.SeSpec.lean ====
/-
  The squeeze-and-excitation gate as ONE function of the five argument arrays, index by index, on the extended reals.

  For a batch row `n` and a channel `c`: the channel's mean over the 2048 positions (`pooled`), the 32 hidden units
  `max (∑ c, pooled n c · w1 j c + b1 j) 0` (`hidden`), the gate `logistic (∑ j, hidden n j · w2 c j + b2 c)` (`gate`), and
  the result `x n c l · gate n c` (`G`).

  Two arrangements of the same number are stated. `G` takes the mean as the row sum TIMES the literal `2⁻¹¹` and writes
  each product of the two contractions with the activation on the left; `GR` takes the mean as the row sum DIVIDED BY the
  literal `2048` and writes each product with the weight on the left. They are equal on all extended reals: dividing
  by the real `2048` is multiplying by the real `1/2048` whatever the dividend (also at the infinities), and the
  product of extended reals is commutative. No finiteness of the arrays is used.
-/
import Idealize.ShloMosaic.PureOps.Ideal
import Idealize.ShloMosaic.Lib.ValueIdx

noncomputable section

open scoped BigOperators

namespace Cert.SeSpec

open Idealize.ShloMosaic Idealize.ShloMosaic.ValueIdx

/-- The activations `[64, 256, 2048]`: batch row, channel, position. -/
abbrev SX : Shape := ⟨3, ![64, 256, 2048]⟩
/-- The squeeze weights `[32, 256, 1]`: hidden unit, channel. -/
abbrev SW1 : Shape := ⟨3, ![32, 256, 1]⟩
/-- The squeeze bias `[32]`. -/
abbrev SB1 : Shape := ⟨1, ![32]⟩
/-- The excite weights `[256, 32, 1]`: channel, hidden unit. -/
abbrev SW2 : Shape := ⟨3, ![256, 32, 1]⟩
/-- The excite bias `[256]`. -/
abbrev SB2 : Shape := ⟨1, ![256]⟩

/-! ## The two literals -/

/-- The word `0x45000000` is the real `2048 = 2¹¹`. -/
theorem ofBits_2048 : Ideal.ofBits .f32 0x45000000#32 = ((2048 : ℝ) : EReal) := by
  simp [Ideal.ofBits, Ideal.ieee, -EReal.coe_mul]; norm_num

/-- The word `0x3A000000` is the real `1/2048 = 2⁻¹¹`. -/
theorem ofBits_inv2048 : Ideal.ofBits .f32 0x3A000000#32 = ((1 / 2048 : ℝ) : EReal) := by
  simp [Ideal.ofBits, Ideal.ieee, -EReal.coe_mul]; norm_num

variable (x : FVec Ideal SX .f32) (w1 : FVec Ideal SW1 .f32) (b1 : FVec Ideal SB1 .f32)
  (w2 : FVec Ideal SW2 .f32) (b2 : FVec Ideal SB2 .f32)

/-! ## The gate, activation on the left, the mean by a product -/

/-- The mean of channel `c` of batch row `n` over the positions: the row sum times `2⁻¹¹`. -/
def pooled (n : Fin 64) (c : Fin 256) : EReal :=
  (∑ l : Fin 2048, x (ix3 n c l)) * Ideal.ofBits .f32 0x3A000000#32

/-- Hidden unit `j` of batch row `n`: the rectified affine image of the channel means. -/
def hidden (n : Fin 64) (j : Fin 32) : EReal :=
  max ((∑ c : Fin 256, pooled x n c * w1 (ix3 j c 0)) + b1 (ix1 j)) (Ideal.ofBits .f32 0x00000000#32)

/-- The gate of channel `c` of batch row `n`: the logistic of the affine image of the hidden units. -/
def gate (n : Fin 64) (c : Fin 256) : EReal :=
  Ideal.logistic ((∑ j : Fin 32, hidden x w1 b1 n j * w2 (ix3 c j 0)) + b2 (ix1 c))

/-- The result: every activation scaled by its channel's gate. -/
def G : FVec Ideal SX .f32 := fun i => x i * gate x w1 b1 w2 b2 (i 0) (i 1)

theorem G_apply (n : Fin 64) (c : Fin 256) (l : Fin 2048) :
    G x w1 b1 w2 b2 (ix3 n c l) = x (ix3 n c l) * gate x w1 b1 w2 b2 n c := rfl

/-! ## The gate, weight on the left, the mean by a quotient -/

/-- The mean as the row sum divided by `2048`. -/
def pooledR (n : Fin 64) (c : Fin 256) : EReal :=
  Ideal.div (∑ l : Fin 2048, x (ix3 n c l)) (Ideal.ofBits .f32 0x45000000#32)

/-- Hidden unit `j`, each product with the weight on the left. -/
def hiddenR (n : Fin 64) (j : Fin 32) : EReal :=
  max ((∑ c : Fin 256, w1 (ix3 j c 0) * pooledR x n c) + b1 (ix1 j)) (Ideal.ofBits .f32 0x00000000#32)

/-- The gate, each product with the weight on the left. -/
def gateR (n : Fin 64) (c : Fin 256) : EReal :=
  Ideal.logistic ((∑ j : Fin 32, w2 (ix3 c j 0) * hiddenR x w1 b1 n j) + b2 (ix1 c))

/-- The result in that arrangement. -/
def GR : FVec Ideal SX .f32 := fun i => x i * gateR x w1 b1 w2 b2 (i 0) (i 1)

theorem GR_apply (n : Fin 64) (c : Fin 256) (l : Fin 2048) :
    GR x w1 b1 w2 b2 (ix3 n c l) = x (ix3 n c l) * gateR x w1 b1 w2 b2 n c := rfl

/-! ## The two arrangements are one function -/

/-- A quotient by `2048` is the product with `2⁻¹¹`, on every extended real. -/
theorem pooledR_eq (n : Fin 64) (c : Fin 256) : pooledR x n c = pooled x n c := by
  unfold pooledR pooled
  rw [ofBits_2048, ofBits_inv2048, Ideal.div_coe (by norm_num : (2048 : ℝ) ≠ 0)]

/-- The hidden units agree: the means agree and the products commute. -/
theorem hiddenR_eq (n : Fin 64) (j : Fin 32) : hiddenR x w1 b1 n j = hidden x w1 b1 n j := by
  unfold hiddenR hidden
  congr 2
  exact Finset.sum_congr rfl fun c _ => by rw [pooledR_eq, mul_comm]

/-- The gates agree. -/
theorem gateR_eq (n : Fin 64) (c : Fin 256) : gateR x w1 b1 w2 b2 n c = gate x w1 b1 w2 b2 n c := by
  unfold gateR gate
  congr 2
  exact Finset.sum_congr rfl fun j _ => by rw [hiddenR_eq, mul_comm]

/-- The two arrangements are one function of the arrays. -/
theorem GR_eq : GR x w1 b1 w2 b2 = G x w1 b1 w2 b2 := by
  funext i
  exact congrArg (fun g => x i * g) (gateR_eq x w1 b1 w2 b2 (i 0) (i 1))

end Cert.SeSpec

end
-- ==== Proof.KValue.lean ====
/-
  The squeeze-and-excitation kernel's result array after its run is the gate function `G` of the argument arrays.

  Grid point `t` works on batch rows `4t … 4t+3`. Its activation block is those rows of the activations, its parameter
  block is the whole packed array, and what it writes back is, at row `b` of the block, channel `k`, position `l`,
  the body's value there: the activation times the logistic gate of row `4t + b` and channel `k`, the gate computed
  from that row's channel sums and from the four row ranges of the packed array, which are the four parameter
  arguments. That is block `t` of `G`. The sixteen blocks tile the 64 batch rows, so the array ends holding `G`.
-/
import proofs.«112386_g2000605190125749_pallasbulk_600_4_alg».proof.Proof.KFrame
import proofs.«112386_g2000605190125749_pallasbulk_600_4_alg».proof.Proof.KPacked
import proofs.«112386_g2000605190125749_pallasbulk_600_4_alg».proof.Proof.KPayload
import proofs.«112386_g2000605190125749_pallasbulk_600_4_alg».proof.Proof.SeSpec
import Idealize.ShloMosaic.Lib.Pipeline.Value
import Idealize.ShloMosaic.Lib.ValueIdx

set_option maxRecDepth 16384

noncomputable section

open scoped BigOperators

namespace Cert.KernelIdeal.SeValue

open Cert.KernelIdeal Cert.KernelIdeal.Gen Cert.KernelIdeal.Frm
open Idealize.ShloMosaic Idealize.ShloMosaic.TcCoe Idealize.SL.Sem
open Idealize.ShloMosaic.ValueIdx
open Idealize.ShloMosaic.Pipeline (Dat)

/-! ## The parameter block's four loads, at an index -/

section Loads
variable (P : Vec Ideal S72x256 .f32)

/-- The load of rows 0–31 at `(j, k)` is the block at `(j, k)`. -/
theorem ld_w1 (j : Fin 32) (k : Fin 256) : View.ld P rW1 (ix2 j k) = P (ix2 ⟨j.val, by omega⟩ k) :=
  congrArg P (funext fun a => Fin.ext (by
    match a with
    | ⟨0, _⟩ => show 0 + 1 * j.val = j.val; omega
    | ⟨1, _⟩ => show 0 + 1 * k.val = k.val; omega))

/-- The load of rows 32–63 at `(j, k)` is the block at `(32 + j, k)`. -/
theorem ld_w2 (j : Fin 32) (k : Fin 256) : View.ld P rW2 (ix2 j k) = P (ix2 ⟨32 + j.val, by omega⟩ k) :=
  congrArg P (funext fun a => Fin.ext (by
    match a with
    | ⟨0, _⟩ => show 32 + 1 * j.val = 32 + j.val; omega
    | ⟨1, _⟩ => show 0 + 1 * k.val = k.val; omega))

/-- The load of the first 32 columns of row 64 at `(0, j)` is the block at `(64, j)`. -/
theorem ld_b1 (j : Fin 32) : View.ld P rB1 (ix2 0 j) = P (ix2 ⟨64, by omega⟩ ⟨j.val, by omega⟩) :=
  congrArg P (funext fun a => Fin.ext (by
    match a with
    | ⟨0, _⟩ => show 64 + 1 * 0 = 64; rfl
    | ⟨1, _⟩ => show 0 + 1 * j.val = j.val; omega))

/-- The load of row 65 at `(0, k)` is the block at `(65, k)`. -/
theorem ld_b2 (k : Fin 256) : View.ld P rB2 (ix2 0 k) = P (ix2 ⟨65, by omega⟩ k) :=
  congrArg P (funext fun a => Fin.ext (by
    match a with
    | ⟨0, _⟩ => show 65 + 1 * 0 = 65; rfl
    | ⟨1, _⟩ => show 0 + 1 * k.val = k.val; omega))

end Loads

/-! ## The body's value on a block is the block of `G` -/

/-- Let the activation block `x0` be batch rows `4T … 4T+3` of `x`, and let the four parameter loads hold the squeeze
    weights, the transposed excite weights, the squeeze bias and the excite bias. Then the body's value at row `b`,
    channel `k`, position `l` is `G` at batch row `4T + b`: both sides are the same expression once each load is read. -/
theorem block_value_of_loads (x : FVec Ideal SeSpec.SX .f32) (w1 : FVec Ideal SeSpec.SW1 .f32) (b1 : FVec Ideal SeSpec.SB1 .f32)
    (w2 : FVec Ideal SeSpec.SW2 .f32) (b2 : FVec Ideal SeSpec.SB2 .f32)
    (x0 : Vec Ideal S4x256x2048 .f32) (p0 p1 : Vec Ideal S32x256 .f32) (p2 : Vec Ideal S1x32 .f32) (p3 : Vec Ideal S1x256 .f32)
    (T : ℕ) (hT : T < 16)
    (hx : ∀ (b : Fin 4) (k : Fin 256) (l : Fin 2048), x0 (ix3 b k l) = x (ix3 ⟨T * 4 + b.val, by omega⟩ k l))
    (h0 : ∀ (j : Fin 32) (k : Fin 256), p0 (ix2 j k) = w1 (ix3 j k 0))
    (h1 : ∀ (j : Fin 32) (k : Fin 256), p1 (ix2 j k) = w2 (ix3 k j 0))
    (h2 : ∀ j : Fin 32, p2 (ix2 0 j) = b1 (ix1 j))
    (h3 : ∀ k : Fin 256, p3 (ix2 0 k) = b2 (ix1 k))
    (b : Fin 4) (k : Fin 256) (l : Fin 2048) :
    k0_pay1 (F := Ideal) x0 p0 p1 p2 p3 (ix3 b k l)
      = SeSpec.G x w1 b1 w2 b2 (ix3 ⟨T * 4 + b.val, by omega⟩ k l) := by
  rw [SeBody.pay_apply, SeSpec.G_apply]
  unfold SeSpec.gate SeSpec.hidden SeSpec.pooled
  simp only [hx, h0, h1, h2, h3]

/-- The same with the four loads taken from a parameter block `P` that holds the squeeze weights in rows 0–31, the
    transposed excite weights in rows 32–63, the squeeze bias in the first 32 columns of row 64 and the excite bias in
    row 65. -/
theorem block_value (x : FVec Ideal SeSpec.SX .f32) (w1 : FVec Ideal SeSpec.SW1 .f32) (b1 : FVec Ideal SeSpec.SB1 .f32)
    (w2 : FVec Ideal SeSpec.SW2 .f32) (b2 : FVec Ideal SeSpec.SB2 .f32)
    (x0 : Vec Ideal S4x256x2048 .f32) (P : Vec Ideal S72x256 .f32) (T : ℕ) (hT : T < 16)
    (hx : ∀ (b : Fin 4) (k : Fin 256) (l : Fin 2048), x0 (ix3 b k l) = x (ix3 ⟨T * 4 + b.val, by omega⟩ k l))
    (hw1 : ∀ (j : Fin 32) (k : Fin 256), P (ix2 ⟨j.val, by omega⟩ k) = w1 (ix3 j k 0))
    (hw2 : ∀ (j : Fin 32) (k : Fin 256), P (ix2 ⟨32 + j.val, by omega⟩ k) = w2 (ix3 k j 0))
    (hb1 : ∀ j : Fin 32, P (ix2 ⟨64, by omega⟩ ⟨j.val, by omega⟩) = b1 (ix1 j))
    (hb2 : ∀ k : Fin 256, P (ix2 ⟨65, by omega⟩ k) = b2 (ix1 k))
    (b : Fin 4) (k : Fin 256) (l : Fin 2048) :
    k0_pay1 (F := Ideal) x0 (View.ld P rW1) (View.ld P rW2) (View.ld P rB1) (View.ld P rB2) (ix3 b k l)
      = SeSpec.G x w1 b1 w2 b2 (ix3 ⟨T * 4 + b.val, by omega⟩ k l) :=
  block_value_of_loads x w1 b1 w2 b2 x0 (View.ld P rW1) (View.ld P rW2) (View.ld P rB1) (View.ld P rB2) T hT hx
    (fun j k => (ld_w1 P j k).trans (hw1 j k)) (fun j k => (ld_w2 P j k).trans (hw2 j k))
    (fun j => (ld_b1 P j).trans (hb1 j)) (fun k => (ld_b2 P k).trans (hb2 k)) b k l

/-- The same at any index of the block. -/
theorem block_value_idx (x : FVec Ideal SeSpec.SX .f32) (w1 : FVec Ideal SeSpec.SW1 .f32) (b1 : FVec Ideal SeSpec.SB1 .f32)
    (w2 : FVec Ideal SeSpec.SW2 .f32) (b2 : FVec Ideal SeSpec.SB2 .f32)
    (x0 : Vec Ideal S4x256x2048 .f32) (P : Vec Ideal S72x256 .f32) (T : ℕ) (hT : T < 16)
    (hx : ∀ (b : Fin 4) (k : Fin 256) (l : Fin 2048), x0 (ix3 b k l) = x (ix3 ⟨T * 4 + b.val, by omega⟩ k l))
    (hw1 : ∀ (j : Fin 32) (k : Fin 256), P (ix2 ⟨j.val, by omega⟩ k) = w1 (ix3 j k 0))
    (hw2 : ∀ (j : Fin 32) (k : Fin 256), P (ix2 ⟨32 + j.val, by omega⟩ k) = w2 (ix3 k j 0))
    (hb1 : ∀ j : Fin 32, P (ix2 ⟨64, by omega⟩ ⟨j.val, by omega⟩) = b1 (ix1 j))
    (hb2 : ∀ k : Fin 256, P (ix2 ⟨65, by omega⟩ k) = b2 (ix1 k))
    (j : S4x256x2048.Idx) :
    k0_pay1 (F := Ideal) x0 (View.ld P rW1) (View.ld P rW2) (View.ld P rB1) (View.ld P rB2) j
      = SeSpec.G x w1 b1 w2 b2 (ix3 ⟨T * 4 + (j 0).val, by have h : (j 0).val < 4 := (j 0).isLt; omega⟩ (j 1) (j 2)) := by
  obtain ⟨b, k, l, rfl⟩ : ∃ (b : Fin 4) (k : Fin 256) (l : Fin 2048), j = ix3 b k l := ⟨j 0, j 1, j 2, eq_ix3 j⟩
  exact block_value x w1 b1 w2 b2 x0 P T hT hx hw1 hw2 hb1 hb2 b k l

/-! ## What a point writes back, the cover, the array -/

variable (m : (ℓ : Loc nD τ sig) → Buf (Elt Ideal) ℓ) (ρ : Dev nD → PrngReg)

/-- The gate function of core `c`'s five argument arrays. -/
abbrev result (c : Dev nD) : FVec Ideal S64x256x2048 .f32 :=
  SeSpec.G (m ((c : Thread nD τ).loc main_arg0)) (m ((c : Thread nD τ).loc main_arg1)) (m ((c : Thread nD τ).loc main_arg2))
    (m ((c : Thread nD τ).loc main_arg3)) (m ((c : Thread nD τ).loc main_arg4))

theorem zero3 : (![0, 0, 0] : Fin 3 → Nat) = fun _ => 0 := funext fun a => by fin_cases a <;> rfl

/-- The index maps over the grid: the activation and result windows' block index is `(t, 0, 0)`, the parameter
    window's is `(0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- Every block row of the result is some point's. -/
theorem idx_onto : ∀ q : Fin 16, ∃ t : Fin cfg0.N, win0_2.index t = ![q.val, 0, 0] :=
  (by decide +kernel : ∀ q : Fin 16, ∃ t : Fin grid0.N, win0_2.index t = ![q.val, 0, 0])

/-- What point `t` writes back is block `t` of `G` of the argument arrays. -/
theorem flushed_eq (c : Dev nD) (t : Fin cfg0.N) :
    (dats m 0 c).flushed 2 t = ((cfg0.win 2).blk t).view.read (Elt Ideal) (result m c) := by
  rw [flushed2]
  unfold out0_2
  rw [View.canon_unit_zero zero3]
  simp only [View.ld_unit_zero (S := S4x256x2048) zero3]
  obtain ⟨e00, e01, e02, e10, e11, e20, e21, e22⟩ := idx_facts t
  have hT : t.val < 16 := t.isLt.trans_eq N_0
  funext j
  have hj0 : (j 0).val < 4 := (j 0).isLt
  have hj1 : (j 1).val < 256 := (j 1).isLt
  have hj2 : (j 2).val < 2048 := (j 2).isLt
  show k0_pay1 (F := Ideal) (iblk m c 0 t) (View.ld (iblk m c 1 t) rW1) (View.ld (iblk m c 1 t) rW2)
      (View.ld (iblk m c 1 t) rB1) (View.ld (iblk m c 1 t) rB2) j
    = result m c (((cfg0.win 2).blk t).view.emb j)
  have hemb : ((cfg0.win 2).blk t).view.emb j = ix3 ⟨t.val * 4 + (j 0).val, by omega⟩ (j 1) (j 2) := by
    funext a; apply Fin.ext
    match a with
    | ⟨0, _⟩ => show win0_2.index t (0 : Fin 3) * 4 + 1 * (j 0).val = t.val * 4 + (j 0).val; omega
    | ⟨1, _⟩ => show win0_2.index t (1 : Fin 3) * 256 + 1 * (j 1).val = (j 1).val; omega
    | ⟨2, _⟩ => show win0_2.index t (2 : Fin 3) * 2048 + 1 * (j 2).val = (j 2).val; omega
  rw [hemb]
  refine block_value_idx _ _ _ _ _ (iblk m c 0 t) (iblk m c 1 t) t.val hT ?_ ?_ ?_ ?_ ?_ j
  · intro b k l
    show V m c main_arg0 (((cfg0.win 0).blk t).view.emb (ix3 b k l)) = _
    rw [V_main_arg0]
    refine congrArg (m ((c : Thread nD τ).loc main_arg0)) (funext fun a => Fin.ext ?_)
    match a with
    | ⟨0, _⟩ => show win0_0.index t (0 : Fin 3) * 4 + 1 * b.val = t.val * 4 + b.val; omega
    | ⟨1, _⟩ => show win0_0.index t (1 : Fin 3) * 256 + 1 * k.val = k.val; omega
    | ⟨2, _⟩ => show win0_0.index t (2 : Fin 3) * 2048 + 1 * l.val = l.val; omega
  · intro j k
    show V m c main_v10 (((cfg0.win 1).blk t).view.emb (ix2 ⟨j.val, by omega⟩ k)) = _
    refine Eq.trans (congrArg (V m c main_v10) (funext fun a => Fin.ext ?_)) (SePacked.packed_w1 m c j k)
    match a with
    | ⟨0, _⟩ => show win0_1.index t (0 : Fin 2) * 72 + 1 * j.val = j.val; omega
    | ⟨1, _⟩ => show win0_1.index t (1 : Fin 2) * 256 + 1 * k.val = k.val; omega
  · intro j k
    show V m c main_v10 (((cfg0.win 1).blk t).view.emb (ix2 ⟨32 + j.val, by omega⟩ k)) = _
    refine Eq.trans (congrArg (V m c main_v10) (funext fun a => Fin.ext ?_)) (SePacked.packed_w2 m c j k)
    match a with
    | ⟨0, _⟩ => show win0_1.index t (0 : Fin 2) * 72 + 1 * (32 + j.val) = 32 + j.val; omega
    | ⟨1, _⟩ => show win0_1.index t (1 : Fin 2) * 256 + 1 * k.val = k.val; omega
  · intro j
    show V m c main_v10 (((cfg0.win 1).blk t).view.emb (ix2 ⟨64, by omega⟩ ⟨j.val, by omega⟩)) = _
    refine Eq.trans (congrArg (V m c main_v10) (funext fun a => Fin.ext ?_)) (SePacked.packed_b1 m c j)
    match a with
    | ⟨0, _⟩ => show win0_1.index t (0 : Fin 2) * 72 + 1 * 64 = 64; omega
    | ⟨1, _⟩ => show win0_1.index t (1 : Fin 2) * 256 + 1 * j.val = j.val; omega
  · intro k
    show V m c main_v10 (((cfg0.win 1).blk t).view.emb (ix2 ⟨65, by omega⟩ k)) = _
    refine Eq.trans (congrArg (V m c main_v10) (funext fun a => Fin.ext ?_)) (SePacked.packed_b2 m c k)
    match a with
    | ⟨0, _⟩ => show win0_1.index t (0 : Fin 2) * 72 + 1 * 65 = 65; omega
    | ⟨1, _⟩ => show win0_1.index t (1 : Fin 2) * 256 + 1 * k.val = k.val; omega

/-- An index of the array is in point `t`'s block iff each coordinate is in the block's range on its axis. -/
theorem mem_blk (t : Fin cfg0.N) (i : S64x256x2048.Idx) :
    i ∈ ((cfg0.win 2).blk t).view.set ↔ ∀ a : Fin 3, win0_2.index t a * S4x256x2048.size a ≤ (i a).val
      ∧ (i a).val < win0_2.index t a * S4x256x2048.size a + S4x256x2048.size a := by
  show i ∈ ((View.whole main_v11).slice (win0_2.rect t)).set ↔ _
  rw [View.set_slice_whole, Rect.mem_set_unit]
  exact Iff.rfl

/-- Batch row `n` lies in the block of point `n / 4`: the sixteen blocks cover the array. -/
theorem cover (i : S64x256x2048.Idx) :
    ∃ t : Fin cfg0.N, (cfg0.win 2).flush t = true ∧ i ∈ ((cfg0.win 2).blk t).view.set := by
  have hi0 : (i 0).val < 64 := (i 0).isLt
  have hi1 : (i 1).val < 256 := (i 1).isLt
  have hi2 : (i 2).val < 2048 := (i 2).isLt
  obtain ⟨t, ht⟩ := idx_onto ⟨(i 0).val / 4, by omega⟩
  have q0 : win0_2.index t (0 : Fin 3) = (i 0).val / 4 := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 4 ≤ (i 0).val ∧ (i 0).val < win0_2.index t (0 : Fin 3) * 4 + 4; omega
  | ⟨1, _⟩ => show win0_2.index t (1 : Fin 3) * 256 ≤ (i 1).val ∧ (i 1).val < win0_2.index t (1 : Fin 3) * 256 + 256; omega
  | ⟨2, _⟩ => show win0_2.index t (2 : Fin 3) * 2048 ≤ (i 2).val ∧ (i 2).val < win0_2.index t (2 : Fin 3) * 2048 + 2048; omega

/-- The result array after the run is `G` of the argument arrays. -/
theorem final (c : Dev nD) : (dats m 0 c).arrAt 2 cfg0.N = result m c :=
  (dats m 0 c).arrAt_eq_of_cover 2 (result m c) (fun t _ => flushed_eq m c t) cover

/-- The run with the result read: the result array at `G` of the arguments, the arguments unchanged. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.SeValue

end
-- ==== Proof.RPayload.lean ====
/-
  The reference kernel body's value at one element of the result block.

  The body reads five blocks: one batch row x of the input ([1, 256, 2048]), the two weight matrices W1 ([32, 256]) and
  W2 ([256, 32]) and the two bias columns b1 ([32, 1]) and b2 ([256, 1]). It averages each channel of x over its 2048
  positions, sends the 256 means through W1 and b1, clamps at zero, sends the 32 results through W2 and b2, takes the
  logistic function and scales every position of channel c of x by gate c. Read at the element (0, c, l) that is

    x(0, c, l) · logistic (Σ_j W2(c, j) · max (Σ_c' W1(j, c') · (Σ_l' x(0, c', l')) / 2048 + b1(j, 0)) 0 + b2(c, 0)).

  The lemmas below read each operation that moves or combines indices (the two views that drop and add the unit batch
  axis, the sum over positions, the view of the 256 sums as a column, the two matrix products, the spreading of the gate
  column over the positions) at an index written by its coordinates; the elementwise operations read at an index by
  definition.
-/
import proofs.«112386_g2000605190125749_pallasbulk_600_4_alg».proof.Proof.Gen.ReferenceIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.SeBody

open Cert.ReferenceIdeal Cert.ReferenceIdeal.Gen Idealize.ShloMosaic Idealize.ShloMosaic.ValueIdx

/-! ## The sum over positions and the column of means -/

/-- The position `k` put back on the summed axis of the channel index `c'` is the element `(c', k)`. -/
theorem lift_position (c' : Fin 256) (k : Fin 2048) :
    reduces_S256x2048_S256.lift (ix1 c') k = ix2 c' k :=
  funext fun a => Fin.ext (match a with | ⟨0, _⟩ => rfl | ⟨1, _⟩ => rfl)

/-- The sum over axis 1 of a [256, 2048] array, at channel `c'`, is the sum of that channel's 2048 entries. -/
theorem positionSum_apply (y : FVec Ideal S256x2048 .f32) (c' : Fin 256) :
    multiReduction (F := Ideal) .add [1] S256 y 0x00000000#32 reduces_S256x2048_S256 (.inl rfl) rfl (ix1 c')
      = ∑ l' : Fin 2048, y (ix2 c' l') := by
  refine (Ideal.multiReduction_add_single y _ reduces_S256x2048_S256 (.inl rfl) rfl (ix1 c')).trans ?_
  exact Finset.sum_congr rfl fun k _ => congrArg y (lift_position c' k)

/-- A [256] vector viewed as a [256, 1] column reads, at `(c', 0)`, the vector at `c'`. -/
theorem column_apply {α : Type} (v : S256.Idx → α) (c' : Fin 256) :
    shapeCast S256x1 v shapeCasts_S256_S256x1 (ix2 c' (0 : Fin 1)) = v (ix1 c') :=
  shapeCast_apply v _ _ _ (by
    rw [Shape.rowMajor_val_one, Shape.rowMajor_val_two]
    show c'.val = c'.val * 1 + 0
    omega)

/-- A [256, 1] column spread over 2048 positions reads, at `(c, l)`, the column at `(c, 0)`. -/
theorem spread_apply {α : Type} (g : S256x1.Idx → α) (c : Fin 256) (l : Fin 2048) :
    broadcastTo S256x2048 g broadcasts_S256x1_S256x2048 (ix2 c l) = g (ix2 c (0 : Fin 1)) :=
  broadcastTo_apply g _ _ _ fun a => match a with
    | ⟨0, _⟩ => rfl
    | ⟨1, _⟩ => rfl

/-- The logistic function of a vector, at an index, is the logistic function of the entry. -/
theorem logistic_apply {s : Shape} {φ : FTy} (a : FVec Ideal s φ) (i : s.Idx) : logistic a i = Ideal.logistic (a i) := rfl

/-! ## The two matrix products

Each product contracts the left operand's axis 1 with the right operand's axis 0; its result's row is the left operand's
row and its result's column the right operand's column. The four lemmas per product say so of the operand indices, axis
by axis; the product at `(r, 0)` is then the sum over the contracted coordinate. -/

/-- First product ([32, 256] by [256, 1]): the left operand's row is the result's row. -/
theorem lhs_squeeze_0 (i : S32x1.Idx) (q : dot_S32x256_S256x1_S32x1_1_0_0_1_n_n.contr.Idx) :
    (dot_S32x256_S256x1_S32x1_1_0_0_1_n_n.lhsIdx i q 0).val = (i 0).val := by
  unfold DotDims.lhsIdx
  rw [dif_neg (show ¬(0 : Fin S32x256.rank) ∈ dot_S32x256_S256x1_S32x1_1_0_0_1_n_n.lhsBatch by decide),
    dif_pos (show (0 : Fin S32x256.rank) ∈ dot_S32x256_S256x1_S32x1_1_0_0_1_n_n.lhsNonContracting by decide)]
  rfl

/-- First product: the left operand's column is the contracted coordinate. -/
theorem lhs_squeeze_1 (i : S32x1.Idx) (q : dot_S32x256_S256x1_S32x1_1_0_0_1_n_n.contr.Idx) :
    (dot_S32x256_S256x1_S32x1_1_0_0_1_n_n.lhsIdx i q 1).val = (q ⟨0, by decide⟩).val :=
  dot_S32x256_S256x1_S32x1_1_0_0_1_n_n.lhsIdx_val_of_single rfl i q

/-- First product: the right operand's row is the contracted coordinate. -/
theorem rhs_squeeze_0 (i : S32x1.Idx) (q : dot_S32x256_S256x1_S32x1_1_0_0_1_n_n.contr.Idx) :
    (dot_S32x256_S256x1_S32x1_1_0_0_1_n_n.rhsIdx i q 0).val = (q ⟨0, by decide⟩).val :=
  dot_S32x256_S256x1_S32x1_1_0_0_1_n_n.rhsIdx_val_of_single rfl i q

/-- First product: the right operand's column is the result's column. -/
theorem rhs_squeeze_1 (i : S32x1.Idx) (q : dot_S32x256_S256x1_S32x1_1_0_0_1_n_n.contr.Idx) :
    (dot_S32x256_S256x1_S32x1_1_0_0_1_n_n.rhsIdx i q 1).val = (i 1).val := by
  unfold DotDims.rhsIdx
  rw [dif_neg (show ¬(1 : Fin S256x1.rank) ∈ dot_S32x256_S256x1_S32x1_1_0_0_1_n_n.rhsBatch by decide),
    dif_pos (show (1 : Fin S256x1.rank) ∈ dot_S32x256_S256x1_S32x1_1_0_0_1_n_n.rhsNonContracting by decide)]
  rfl

/-- The first product into a zero accumulator, at `(j, 0)`: row `j` of the matrix against the column. -/
theorem squeeze_apply (w : FVec Ideal S32x256 .f32) (m : FVec Ideal S256x1 .f32) (j : Fin 32) :
    matmul dot_S32x256_S256x1_S32x1_1_0_0_1_n_n (some .fp32) w m (constant (F := Ideal) S32x1 .f32 0x00000000#32) (ix2 j (0 : Fin 1))
      = ∑ c' : Fin 256, w (ix2 j c') * m (ix2 c' (0 : Fin 1)) := by
  refine (Ideal.matmul_constant_zero_apply dot_S32x256_S256x1_S32x1_1_0_0_1_n_n _ w m (ix2 j (0 : Fin 1))).trans ?_
  rw [← Equiv.sum_comp (contrEquiv1 dot_S32x256_S256x1_S32x1_1_0_0_1_n_n 256 rfl rfl).symm]
  refine Finset.sum_congr rfl fun k _ => ?_
  have hk := contrEquiv1_symm_val dot_S32x256_S256x1_S32x1_1_0_0_1_n_n 256 rfl rfl k
  have el : dot_S32x256_S256x1_S32x1_1_0_0_1_n_n.lhsIdx (ix2 j (0 : Fin 1))
      ((contrEquiv1 dot_S32x256_S256x1_S32x1_1_0_0_1_n_n 256 rfl rfl).symm k) = ix2 j k :=
    funext fun a => Fin.ext (by
      match a with
      | ⟨0, _⟩ => exact lhs_squeeze_0 _ _
      | ⟨1, _⟩ => exact (lhs_squeeze_1 _ _).trans hk)
  have er : dot_S32x256_S256x1_S32x1_1_0_0_1_n_n.rhsIdx (ix2 j (0 : Fin 1))
      ((contrEquiv1 dot_S32x256_S256x1_S32x1_1_0_0_1_n_n 256 rfl rfl).symm k) = ix2 k (0 : Fin 1) :=
    funext fun a => Fin.ext (by
      match a with
      | ⟨0, _⟩ => exact (rhs_squeeze_0 _ _).trans hk
      | ⟨1, _⟩ => exact rhs_squeeze_1 _ _)
  rw [el, er]

/-- Second product ([256, 32] by [32, 1]): the left operand's row is the result's row. -/
theorem lhs_excite_0 (i : S256x1.Idx) (q : dot_S256x32_S32x1_S256x1_1_0_0_1_n_n.contr.Idx) :
    (dot_S256x32_S32x1_S256x1_1_0_0_1_n_n.lhsIdx i q 0).val = (i 0).val := by
  unfold DotDims.lhsIdx
  rw [dif_neg (show ¬(0 : Fin S256x32.rank) ∈ dot_S256x32_S32x1_S256x1_1_0_0_1_n_n.lhsBatch by decide),
    dif_pos (show (0 : Fin S256x32.rank) ∈ dot_S256x32_S32x1_S256x1_1_0_0_1_n_n.lhsNonContracting by decide)]
  rfl

/-- Second product: the left operand's column is the contracted coordinate. -/
theorem lhs_excite_1 (i : S256x1.Idx) (q : dot_S256x32_S32x1_S256x1_1_0_0_1_n_n.contr.Idx) :
    (dot_S256x32_S32x1_S256x1_1_0_0_1_n_n.lhsIdx i q 1).val = (q ⟨0, by decide⟩).val :=
  dot_S256x32_S32x1_S256x1_1_0_0_1_n_n.lhsIdx_val_of_single rfl i q

/-- Second product: the right operand's row is the contracted coordinate. -/
theorem rhs_excite_0 (i : S256x1.Idx) (q : dot_S256x32_S32x1_S256x1_1_0_0_1_n_n.contr.Idx) :
    (dot_S256x32_S32x1_S256x1_1_0_0_1_n_n.rhsIdx i q 0).val = (q ⟨0, by decide⟩).val :=
  dot_S256x32_S32x1_S256x1_1_0_0_1_n_n.rhsIdx_val_of_single rfl i q

/-- Second product: the right operand's column is the result's column. -/
theorem rhs_excite_1 (i : S256x1.Idx) (q : dot_S256x32_S32x1_S256x1_1_0_0_1_n_n.contr.Idx) :
    (dot_S256x32_S32x1_S256x1_1_0_0_1_n_n.rhsIdx i q 1).val = (i 1).val := by
  unfold DotDims.rhsIdx
  rw [dif_neg (show ¬(1 : Fin S32x1.rank) ∈ dot_S256x32_S32x1_S256x1_1_0_0_1_n_n.rhsBatch by decide),
    dif_pos (show (1 : Fin S32x1.rank) ∈ dot_S256x32_S32x1_S256x1_1_0_0_1_n_n.rhsNonContracting by decide)]
  rfl

/-- The second product into a zero accumulator, at `(c, 0)`: row `c` of the matrix against the column. -/
theorem excite_apply (w : FVec Ideal S256x32 .f32) (m : FVec Ideal S32x1 .f32) (c : Fin 256) :
    matmul dot_S256x32_S32x1_S256x1_1_0_0_1_n_n (some .fp32) w m (constant (F := Ideal) S256x1 .f32 0x00000000#32) (ix2 c (0 : Fin 1))
      = ∑ j : Fin 32, w (ix2 c j) * m (ix2 j (0 : Fin 1)) := by
  refine (Ideal.matmul_constant_zero_apply dot_S256x32_S32x1_S256x1_1_0_0_1_n_n _ w m (ix2 c (0 : Fin 1))).trans ?_
  rw [← Equiv.sum_comp (contrEquiv1 dot_S256x32_S32x1_S256x1_1_0_0_1_n_n 32 rfl rfl).symm]
  refine Finset.sum_congr rfl fun k _ => ?_
  have hk := contrEquiv1_symm_val dot_S256x32_S32x1_S256x1_1_0_0_1_n_n 32 rfl rfl k
  have el : dot_S256x32_S32x1_S256x1_1_0_0_1_n_n.lhsIdx (ix2 c (0 : Fin 1))
      ((contrEquiv1 dot_S256x32_S32x1_S256x1_1_0_0_1_n_n 32 rfl rfl).symm k) = ix2 c k :=
    funext fun a => Fin.ext (by
      match a with
      | ⟨0, _⟩ => exact lhs_excite_0 _ _
      | ⟨1, _⟩ => exact (lhs_excite_1 _ _).trans hk)
  have er : dot_S256x32_S32x1_S256x1_1_0_0_1_n_n.rhsIdx (ix2 c (0 : Fin 1))
      ((contrEquiv1 dot_S256x32_S32x1_S256x1_1_0_0_1_n_n 32 rfl rfl).symm k) = ix2 k (0 : Fin 1) :=
    funext fun a => Fin.ext (by
      match a with
      | ⟨0, _⟩ => exact (rhs_excite_0 _ _).trans hk
      | ⟨1, _⟩ => exact rhs_excite_1 _ _)
  rw [el, er]

/-! ## The body's stored value -/

/-- The body's stored value at channel `c`, position `l` of the one batch row of the block, from its five loads. -/
theorem pay_apply (x0 : Vec Ideal S1x256x2048 .f32) (w1 : Vec Ideal S32x256 .f32) (b1 : Vec Ideal S32x1 .f32)
    (w2 : Vec Ideal S256x32 .f32) (b2 : Vec Ideal S256x1 .f32) (c : Fin 256) (l : Fin 2048) :
    k0_pay1 (F := Ideal) x0 w1 b1 w2 b2 (ix3 0 c l)
      = x0 (ix3 0 c l) * Ideal.logistic ((∑ j : Fin 32, w2 (ix2 c j) *
          max ((∑ c' : Fin 256, w1 (ix2 j c') * Ideal.div (∑ l' : Fin 2048, x0 (ix3 0 c' l')) (Ideal.ofBits .f32 0x45000000#32))
                + b1 (ix2 j 0)) (Ideal.ofBits .f32 0x00000000#32)) + b2 (ix2 c 0)) := by
  -- the unit batch axis added back, the product with the gate, the gate spread over the positions
  unfold k0_pay1
  refine (shapeCast_ab_1ab_apply _ _ (0 : Fin 1) c l).trans ?_
  rw [mulf_apply, spread_apply, shapeCast_1ab_ab_apply, logistic_apply, addf_apply]
  refine congrArg (fun z => x0 (ix3 0 c l) * Ideal.logistic z) ?_
  -- the second product and its bias
  rw [shapeCast_self b2, shapeCast_self w2, excite_apply]
  refine congrArg (fun z => z + b2 (ix2 c 0)) (Finset.sum_congr rfl fun j _ => ?_)
  refine congrArg (fun z => w2 (ix2 c j) * z) ?_
  -- the clamp at zero, the first product and its bias
  rw [maximumf_apply, broadcast_apply, addf_apply, shapeCast_self b1, shapeCast_self w1, squeeze_apply]
  refine congrArg (fun z => max (z + b1 (ix2 j 0)) (Ideal.ofBits .f32 0x00000000#32)) (Finset.sum_congr rfl fun c' _ => ?_)
  refine congrArg (fun z => w1 (ix2 j c') * z) ?_
  -- the mean of channel c' over its positions
  rw [divf_apply, broadcast_apply, column_apply, positionSum_apply]
  refine congrArg (fun z => Ideal.div z (Ideal.ofBits .f32 0x45000000#32)) (Finset.sum_congr rfl fun l' _ => ?_)
  exact shapeCast_1ab_ab_apply x0 _ c' l'

end Cert.ReferenceIdeal.SeBody

end
-- ==== Proof.RValue.lean ====
/-
  The reference's result array after its run, as one function of the argument arrays.

  The grid has 64 points, one per batch row. Point t reads batch row t of the activations and the whole of the two
  weight matrices and the two bias columns (which the host has reshaped from the arguments beforehand), computes the
  gated row, and writes it back as batch row t of the result. So what point t writes back is block t of the gate
  function `GR` of the five argument arrays, and since the 64 blocks cover the result array, the array ends holding
  `GR` of the arguments.
-/
import proofs.«112386_g2000605190125749_pallasbulk_600_4_alg».proof.Proof.Gen.ReferenceIdeal.Value
import proofs.«112386_g2000605190125749_pallasbulk_600_4_alg».proof.Proof.RPayload
import proofs.«112386_g2000605190125749_pallasbulk_600_4_alg».proof.Proof.SeSpec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open scoped BigOperators

namespace Cert.ReferenceIdeal.SeValue

open Cert.ReferenceIdeal Cert.ReferenceIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The four arrays the host reshapes before the grid runs

The grid reads the two weight arrays with their trailing unit axis dropped ([32, 256, 1] as [32, 256], [256, 32, 1] as
[256, 32]) and the two bias vectors as columns ([32] as [32, 1], [256] as [256, 1]). -/

/-- The first weight matrix the grid reads is the second argument with its unit axis dropped. -/
theorem staged_w1 (c : Dev nD) :
    (V m c main_v0 : S32x256.Idx → EReal)
      = shapeCast S32x256 (m ((c : Thread nD τ).loc main_arg1) : S32x256x1.Idx → EReal) shapeCasts_S32x256x1_S32x256 := by
  dsimp only [Gen.V, Gen.hostOps0]; after_results; rfl

/-- The first bias column the grid reads is the third argument as a column. -/
theorem staged_b1 (c : Dev nD) :
    (V m c main_v2 : S32x1.Idx → EReal)
      = shapeCast S32x1 (m ((c : Thread nD τ).loc main_arg2) : S32.Idx → EReal) shapeCasts_S32_S32x1 := by
  dsimp only [Gen.V, Gen.hostOps0]; after_results; rfl

/-- The second weight matrix the grid reads is the fourth argument with its unit axis dropped. -/
theorem staged_w2 (c : Dev nD) :
    (V m c main_v1 : S256x32.Idx → EReal)
      = shapeCast S256x32 (m ((c : Thread nD τ).loc main_arg3) : S256x32x1.Idx → EReal) shapeCasts_S256x32x1_S256x32 := by
  dsimp only [Gen.V, Gen.hostOps0]; after_results; rfl

/-- The second bias column the grid reads is the fifth argument as a column. -/
theorem staged_b2 (c : Dev nD) :
    (V m c main_v3 : S256x1.Idx → EReal)
      = shapeCast S256x1 (m ((c : Thread nD τ).loc main_arg4) : S256.Idx → EReal) shapeCasts_S256_S256x1 := by
  dsimp only [Gen.V, Gen.hostOps0]; after_results; rfl

/-! ## Where each block sits -/

/-- At grid point `t` the activations' block and the result's block are batch row `t` (block index `(t, 0, 0)`), and the
    weights' and biases' blocks are their whole arrays (block index `(0, 0)`): the index maps evaluated at the 64 points. -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-! ## The blocks a grid point reads, as entries of the argument arrays -/

/-- Point `t`'s block of the activations is batch row `t` of the first argument. -/
theorem x_block (c : Dev nD) (t : Fin cfg0.N) (c' : Fin 256) (l' : Fin 2048) :
    (iblk m c 0 t : Vec Ideal S1x256x2048 .f32) (ix3 0 c' l')
      = (m ((c : Thread nD τ).loc main_arg0) : S64x256x2048.Idx → EReal) (ix3 (t.cast N_0) c' l') := by
  obtain ⟨e0, e1, e2, -⟩ := index_facts t
  unfold iblk
  rw [View.read_apply]
  show V m c main_arg0 _ = _
  rw [V_main_arg0]
  refine congrArg (m ((c : Thread nD τ).loc main_arg0) : S64x256x2048.Idx → EReal) (funext fun a => Fin.ext ?_)
  match a with
  | ⟨0, _⟩ => show win0_0.index t (0 : Fin 3) * 1 + 1 * 0 = t.val; omega
  | ⟨1, _⟩ => show win0_0.index t (1 : Fin 3) * 256 + 1 * c'.val = c'.val; omega
  | ⟨2, _⟩ => show win0_0.index t (2 : Fin 3) * 2048 + 1 * l'.val = l'.val; omega

/-- Every point's block of the first weight matrix is the whole second argument, its unit axis dropped. -/
theorem w1_block (c : Dev nD) (t : Fin cfg0.N) (j : Fin 32) (c' : Fin 256) :
    (iblk m c 1 t : Vec Ideal S32x256 .f32) (ix2 j c')
      = (m ((c : Thread nD τ).loc main_arg1) : S32x256x1.Idx → EReal) (ix3 j c' (0 : Fin 1)) := by
  obtain ⟨-, -, -, e0, e1, -⟩ := index_facts t
  unfold iblk
  rw [View.read_apply]
  show V m c main_v0 _ = _
  rw [staged_w1]
  refine shapeCast_apply _ _ _ _ ?_
  show (S32x256x1.rowMajor (ix3 j c' (0 : Fin 1))).val = (S32x256.rowMajor _).val
  rw [Shape.rowMajor_val_three, Shape.rowMajor_val_two]
  show (j.val * 256 + c'.val) * 1 + 0 = (win0_1.index t (0 : Fin 2) * 32 + 1 * j.val) * 256 + (win0_1.index t (1 : Fin 2) * 256 + 1 * c'.val)
  omega

/-- Every point's block of the first bias is the whole third argument as a column. -/
theorem b1_block (c : Dev nD) (t : Fin cfg0.N) (j : Fin 32) :
    (iblk m c 2 t : Vec Ideal S32x1 .f32) (ix2 j (0 : Fin 1))
      = (m ((c : Thread nD τ).loc main_arg2) : S32.Idx → EReal) (ix1 j) := by
  obtain ⟨-, -, -, -, -, e0, e1, -⟩ := index_facts t
  unfold iblk
  rw [View.read_apply]
  show V m c main_v2 _ = _
  rw [staged_b1]
  refine shapeCast_apply _ _ _ _ ?_
  show (S32.rowMajor (ix1 j)).val = (S32x1.rowMajor _).val
  rw [Shape.rowMajor_val_one, Shape.rowMajor_val_two]
  show j.val = (win0_2.index t (0 : Fin 2) * 32 + 1 * j.val) * 1 + (win0_2.index t (1 : Fin 2) * 1 + 1 * 0)
  omega

/-- Every point's block of the second weight matrix is the whole fourth argument, its unit axis dropped. -/
theorem w2_block (c : Dev nD) (t : Fin cfg0.N) (k : Fin 256) (j : Fin 32) :
    (iblk m c 3 t : Vec Ideal S256x32 .f32) (ix2 k j)
      = (m ((c : Thread nD τ).loc main_arg3) : S256x32x1.Idx → EReal) (ix3 k j (0 : Fin 1)) := by
  obtain ⟨-, -, -, -, -, -, -, e0, e1, -⟩ := index_facts t
  unfold iblk
  rw [View.read_apply]
  show V m c main_v1 _ = _
  rw [staged_w2]
  refine shapeCast_apply _ _ _ _ ?_
  show (S256x32x1.rowMajor (ix3 k j (0 : Fin 1))).val = (S256x32.rowMajor _).val
  rw [Shape.rowMajor_val_three, Shape.rowMajor_val_two]
  show (k.val * 32 + j.val) * 1 + 0 = (win0_3.index t (0 : Fin 2) * 256 + 1 * k.val) * 32 + (win0_3.index t (1 : Fin 2) * 32 + 1 * j.val)
  omega

/-- Every point's block of the second bias is the whole fifth argument as a column. -/
theorem b2_block (c : Dev nD) (t : Fin cfg0.N) (k : Fin 256) :
    (iblk m c 4 t : Vec Ideal S256x1 .f32) (ix2 k (0 : Fin 1))
      = (m ((c : Thread nD τ).loc main_arg4) : S256.Idx → EReal) (ix1 k) := by
  obtain ⟨-, -, -, -, -, -, -, -, -, e0, e1, -⟩ := index_facts t
  unfold iblk
  rw [View.read_apply]
  show V m c main_v3 _ = _
  rw [staged_b2]
  refine shapeCast_apply _ _ _ _ ?_
  show (S256.rowMajor (ix1 k)).val = (S256x1.rowMajor _).val
  rw [Shape.rowMajor_val_one, Shape.rowMajor_val_two]
  show k.val = (win0_4.index t (0 : Fin 2) * 256 + 1 * k.val) * 1 + (win0_4.index t (1 : Fin 2) * 1 + 1 * 0)
  omega

/-! ## What a point writes back -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- On blocks that are batch row `n` of the activations and the whole weights and biases, the body's value at channel
    `k`, position `l` is the gate function of the arrays at `(n, k, l)`. -/
theorem body_eq_gate (X : FVec Ideal Cert.SeSpec.SX .f32) (W1 : FVec Ideal Cert.SeSpec.SW1 .f32)
    (B1 : FVec Ideal Cert.SeSpec.SB1 .f32) (W2 : FVec Ideal Cert.SeSpec.SW2 .f32) (B2 : FVec Ideal Cert.SeSpec.SB2 .f32)
    (x0 : Vec Ideal S1x256x2048 .f32) (w1 : Vec Ideal S32x256 .f32) (b1 : Vec Ideal S32x1 .f32)
    (w2 : Vec Ideal S256x32 .f32) (b2 : Vec Ideal S256x1 .f32) (n : Fin 64)
    (hx : ∀ c' l', x0 (ix3 0 c' l') = X (ix3 n c' l'))
    (hw1 : ∀ j c', w1 (ix2 j c') = W1 (ix3 j c' 0))
    (hb1 : ∀ j, b1 (ix2 j 0) = B1 (ix1 j))
    (hw2 : ∀ k j, w2 (ix2 k j) = W2 (ix3 k j 0))
    (hb2 : ∀ k, b2 (ix2 k 0) = B2 (ix1 k)) (k : Fin 256) (l : Fin 2048) :
    k0_pay1 (F := Ideal) x0 w1 b1 w2 b2 (ix3 0 k l) = Cert.SeSpec.GR X W1 B1 W2 B2 (ix3 n k l) := by
  rw [SeBody.pay_apply, Cert.SeSpec.GR_apply]
  unfold Cert.SeSpec.gateR Cert.SeSpec.hiddenR Cert.SeSpec.pooledR
  simp only [hx, hw1, hb1, hw2, hb2]

/-- What point `t` writes back is block `t` of the gate function of the argument arrays. -/
theorem flushed_eq (c : Dev nD) (t : Fin cfg0.N) :
    (dats m 0 c).flushed 5 t = ((cfg0.win 5).blk t).view.read (Elt Ideal)
      (Cert.SeSpec.GR (m ((c : Thread nD τ).loc main_arg0)) (m ((c : Thread nD τ).loc main_arg1))
          (m ((c : Thread nD τ).loc main_arg2)) (m ((c : Thread nD τ).loc main_arg3)) (m ((c : Thread nD τ).loc main_arg4))) := by
  rw [Value.flushed5]
  unfold Gen.out0_5
  rw [View.canon_unit_zero zeros3]
  simp only [View.ld_unit_zero (S := S1x256x2048) zeros3, View.ld_unit_zero (S := S32x256) zeros2,
    View.ld_unit_zero (S := S32x1) zeros2, View.ld_unit_zero (S := S256x32) zeros2, View.ld_unit_zero (S := S256x1) zeros2]
  obtain ⟨-, -, -, -, -, -, -, -, -, -, -, e0, e1, e2⟩ := index_facts t
  funext y
  rw [View.read_apply]
  have hy0 : (y 0).val < 1 := (y 0).isLt
  have hy1 : (y 1).val < 256 := (y 1).isLt
  have hy2 : (y 2).val < 2048 := (y 2).isLt
  have ey : (cfg0.win 5).xinj (grid0.coords t) y = ix3 (0 : Fin 1) (⟨(y 1).val, hy1⟩ : Fin 256) (⟨(y 2).val, hy2⟩ : Fin 2048) :=
    funext fun a => Fin.ext (by
      match a with
      | ⟨0, _⟩ => show (y 0).val = 0; omega
      | ⟨1, _⟩ => rfl
      | ⟨2, _⟩ => rfl)
  have eb : ((cfg0.win 5).blk t).view.emb y = ix3 (t.cast N_0) (⟨(y 1).val, hy1⟩ : Fin 256) (⟨(y 2).val, hy2⟩ : Fin 2048) :=
    funext fun a => Fin.ext (by
      match a with
      | ⟨0, _⟩ => show win0_5.index t (0 : Fin 3) * 1 + 1 * (y 0).val = t.val; omega
      | ⟨1, _⟩ => show win0_5.index t (1 : Fin 3) * 256 + 1 * (y 1).val = (y 1).val; omega
      | ⟨2, _⟩ => show win0_5.index t (2 : Fin 3) * 2048 + 1 * (y 2).val = (y 2).val; omega)
  show k0_pay1 (F := Ideal) (iblk m c 0 t) (iblk m c 1 t) (iblk m c 2 t) (iblk m c 3 t) (iblk m c 4 t)
      ((cfg0.win 5).xinj (grid0.coords t) y) = _
  rw [ey, eb]
  exact body_eq_gate _ _ _ _ _ _ _ _ _ _ (t.cast N_0) (x_block m c t) (w1_block m c t) (b1_block m c t) (w2_block m c t)
    (b2_block m c t) _ _

/-! ## The blocks cover the result array -/

/-- An index of the result array lies in point `t`'s block iff each coordinate lies in the block's range on its axis. -/
theorem mem_block (t : Fin cfg0.N) (i : S64x256x2048.Idx) :
    i ∈ ((cfg0.win 5).blk t).view.set ↔ ∀ a : Fin 3, win0_5.index t a * S1x256x2048.size a ≤ (i a).val
      ∧ (i a).val < win0_5.index t a * S1x256x2048.size a + S1x256x2048.size a := by
  show i ∈ ((View.whole main_v4).slice (win0_5.rect t)).set ↔ _
  rw [View.set_slice_whole, Rect.mem_set_unit]
  exact Iff.rfl

/-- Batch row `n` of the result array is point `n`'s block. -/
theorem cover (i : S64x256x2048.Idx) :
    ∃ t : Fin cfg0.N, (cfg0.win 5).flush t = true ∧ i ∈ ((cfg0.win 5).blk t).view.set := by
  have h0 : (i 0).val < 64 := (i 0).isLt
  have h1 : (i 1).val < 256 := (i 1).isLt
  have h2 : (i 2).val < 2048 := (i 2).isLt
  refine ⟨⟨(i 0).val, by rw [show cfg0.N = 64 from N_0]; exact h0⟩, flush0_5 _, ?_⟩
  rw [mem_block]
  obtain ⟨-, -, -, -, -, -, -, -, -, -, -, e0, e1, e2⟩ :=
    index_facts ⟨(i 0).val, by rw [show cfg0.N = 64 from N_0]; exact h0⟩
  intro a
  match a with
  | ⟨0, _⟩ =>
    show win0_5.index _ (0 : Fin 3) * 1 ≤ (i 0).val ∧ (i 0).val < win0_5.index _ (0 : Fin 3) * 1 + 1
    rw [e0]
    show (i 0).val * 1 ≤ (i 0).val ∧ (i 0).val < (i 0).val * 1 + 1
    omega
  | ⟨1, _⟩ =>
    show win0_5.index _ (1 : Fin 3) * 256 ≤ (i 1).val ∧ (i 1).val < win0_5.index _ (1 : Fin 3) * 256 + 256
    rw [e1]; omega
  | ⟨2, _⟩ =>
    show win0_5.index _ (2 : Fin 3) * 2048 ≤ (i 2).val ∧ (i 2).val < win0_5.index _ (2 : Fin 3) * 2048 + 2048
    rw [e2]; omega

/-! ## The result array -/

/-- After the run the result array is the gate function (weight-on-the-left arrangement) of the argument arrays. -/
theorem final (c : Dev nD) :
    (dats m 0 c).arrAt 5 cfg0.N
      = Cert.SeSpec.GR (m ((c : Thread nD τ).loc main_arg0)) (m ((c : Thread nD τ).loc main_arg1))
          (m ((c : Thread nD τ).loc main_arg2)) (m ((c : Thread nD τ).loc main_arg3)) (m ((c : Thread nD τ).loc main_arg4)) := by
  exact (dats m 0 c).arrAt_eq_of_cover 5 _ (fun t _ => flushed_eq m c t) cover

end Cert.ReferenceIdeal.SeValue

end
-- ==== Proof.lean ====
/-
  The certificate of the squeeze-and-excitation kernel against its reference: both compute, for every batch row,
  channel and position, the activation times the logistic gate `logistic (W2 · relu (W1 · mean x + b1) + b2)` of its
  row and channel.

  The kernel works on blocks of four batch rows and reads its four parameter arrays out of one packed array that the
  host lays out before the region; the reference works on one batch row at a time and reads the parameter arrays
  directly. The kernel takes the mean as the row sum times `2⁻¹¹` and writes its two contractions with the activation
  on the left; the reference divides the row sum by `2048` and writes them with the weight on the left. On the extended
  reals these are one function of the five argument arrays (Proof/SeSpec.lean): a quotient by the real `2048` is the
  product with `1/2048` everywhere, and the product commutes. No finiteness of the inputs is used.

  The three frames: the kernel's, at both float instances, is Proof/KFrame.lean's run of the one region between the
  host operations; the reference's is its generated frame. The ideal pass rewrote nothing, so there is nothing to
  preserve. For the value claim each program's result array after its run is read as that one function
  (Proof/KValue.lean, Proof/RValue.lean) and the arguments' agreement is rewritten.
-/
import proofs.«112386_g2000605190125749_pallasbulk_600_4_alg».proof.Defs
import proofs.«112386_g2000605190125749_pallasbulk_600_4_alg».proof.Proof.Gen.Kernel
import proofs.«112386_g2000605190125749_pallasbulk_600_4_alg».proof.Proof.Gen.KernelIdeal
import proofs.«112386_g2000605190125749_pallasbulk_600_4_alg».proof.Proof.Gen.ReferenceIdeal
import proofs.«112386_g2000605190125749_pallasbulk_600_4_alg».proof.Proof.Gen.ReferenceIdeal.Frame
import proofs.«112386_g2000605190125749_pallasbulk_600_4_alg».proof.Proof.Gen.ReferenceIdeal.Value
import proofs.«112386_g2000605190125749_pallasbulk_600_4_alg».proof.Proof.Gen.Pre_finite_inputs
import proofs.«112386_g2000605190125749_pallasbulk_600_4_alg».proof.Proof.KFrame
import proofs.«112386_g2000605190125749_pallasbulk_600_4_alg».proof.Proof.KFrameBits
import proofs.«112386_g2000605190125749_pallasbulk_600_4_alg».proof.Proof.KValue
import proofs.«112386_g2000605190125749_pallasbulk_600_4_alg».proof.Proof.RValue
import proofs.«112386_g2000605190125749_pallasbulk_600_4_alg».proof.Proof.SeSpec
import Idealize.ShloMosaic.Adequacy
import Idealize.ShloMosaic.Init

noncomputable section

namespace Cert.Proof

open Idealize.ShloMosaic Idealize.ShloMosaic.TcCoe Idealize.SL.Sem

/-- The kernel as printed terminates and leaves its arguments as launched. -/
theorem frame_kernel : Cert.frame_Kernel := fun m ρ _ => Cert.Kernel.Frm.frame m ρ

/-- So does its idealization. -/
theorem frame_kernelIdeal : Cert.frame_KernelIdeal := fun m ρ _ => Cert.KernelIdeal.Frm.frame m ρ

/-- So does the reference. -/
theorem frame_referenceIdeal : Cert.frame_ReferenceIdeal := fun m ρ _ => Cert.ReferenceIdeal.Gen.frame m ρ

/-- The ideal pass rewrote no operation. -/
theorem preserves : Cert.preserves_Kernel_KernelIdeal := trivial

/-- From memories agreeing on the arguments both programs end with the gate function of the arguments in their result
    arrays: the kernel's in the activation-on-the-left arrangement, the reference's in the weight-on-the-left one, which
    are equal. -/
theorem algebraic : Cert.algebraic_KernelIdeal_ReferenceIdeal := by
  intro m ρ m' ρ' _ hagree
  refine ⟨fun c => Cert.KernelIdeal.SeValue.result m c, Cert.KernelIdeal.SeValue.run m ρ, ?_⟩
  refine (θ_run Cert.ReferenceIdeal.defs _ _).mono (fun r h c => ⟨(h c).1.trans ?_, (h c).2⟩)
    (Cert.ReferenceIdeal.Value.run_blocks (F := Ideal) m' ρ')
  obtain ⟨h0, h1, h2, h3, h4⟩ := hagree c
  rw [Cert.ReferenceIdeal.SeValue.final m' c, Cert.SeSpec.GR_eq, h0, h1, h2, h3, h4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
